-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128 .f32) (main_arg6 : FVec F S128 .f32) (main_arg7 : FVec F S128x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x64 : Shape := ⟨2, ![5000, 64]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩
abbrev S1700000x64 : Shape := ⟨2, ![1700000, 64]⟩
abbrev S1x64 : Shape := ⟨2, ![1, 64]⟩
abbrev S100000x1 : Shape := ⟨2, ![100000, 1]⟩
abbrev S64x64 : Shape := ⟨2, ![64, 64]⟩
abbrev S64x1 : Shape := ⟨2, ![64, 1]⟩

abbrev nBuf : Space → Nat
  | .hbm => 110
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S64, .i32⟩
  | .hbm, ⟨91, _⟩ => ⟨S100000x1, .i32⟩
  | .hbm, ⟨92, _⟩ => ⟨S1x64, .i32⟩
  | .hbm, ⟨93, _⟩ => ⟨S100000x64, .i32⟩
  | .hbm, ⟨94, _⟩ => ⟨S100000x64, .i32⟩
  | .hbm, ⟨95, _⟩ => ⟨S100000x64, .i1⟩
  | .hbm, ⟨96, _⟩ => ⟨S100000x64, .bf16⟩
  | .hbm, ⟨97, _⟩ => ⟨S64x64, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S64, .f32⟩
  | .hbm, ⟨102, _⟩ => ⟨S100000x1, .i32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64x1, .f32⟩
  | .hbm, ⟨108, _⟩ => ⟨S64x64, .f32⟩
  | .hbm, ⟨109, _⟩ => ⟨S64x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S5000x64_S5000x64 : S5000x64.ShapeCasts S5000x64
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S5000x64_S64x64_0_0_1_1_n_n_wf : DotDims.WF S5000x64 S5000x64 S64x64 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .bf16 = 32 ∨ (Rect.block (s := S100000x64) S5000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S64x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1700000x64 : Shape := ⟨2, ![1700000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 170
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128, .f32⟩
  | 6 => ⟨S128, .f32⟩
  | 7 => ⟨S128x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000, .f32⟩
  | 71 => ⟨S100000x1, .f32⟩
  | 72 => ⟨S_, .f32⟩
  | 73 => ⟨S100000x1, .f32⟩
  | 74 => ⟨S100000x1, .f32⟩
  | 75 => ⟨S100000x128, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S_, .f32⟩
  | 87 => ⟨S100000x1, .f32⟩
  | 88 => ⟨S100000x1, .f32⟩
  | 89 => ⟨S100000x1, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x64, .f32⟩
  | 102 => ⟨S_, .f32⟩
  | 103 => ⟨S1700000, .f32⟩
  | 104 => ⟨S_, .f32⟩
  | 105 => ⟨S100000, .f32⟩
  | 106 => ⟨S1700000x1, .i32⟩
  | 107 => ⟨S100000, .f32⟩
  | 108 => ⟨S_, .f32⟩
  | 109 => ⟨S100000, .f32⟩
  | 110 => ⟨S100000, .i1⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S_, .i32⟩
  | 126 => ⟨S1700000, .i32⟩
  | 127 => ⟨S1700000, .i1⟩
  | _ => ⟨S100000x64, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000, .f32⟩
  | 6 => ⟨S1700000, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x64, .f32⟩
  | 16 => ⟨S1700000x1, .f32⟩
  | 17 => ⟨S1700000x64, .f32⟩
  | 18 => ⟨S1700000x64, .f32⟩
  | 19 => ⟨S_, .f32⟩
  | 20 => ⟨S100000x64, .f32⟩
  | 21 => ⟨S1700000x1, .i32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S64x64, .f32⟩
  | 28 => ⟨S100000x1, .i32⟩
  | 29 => ⟨S64x64, .f32⟩
  | 30 => ⟨S_, .f32⟩
  | 31 => ⟨S100000, .f32⟩
  | 32 => ⟨S_, .f32⟩
  | 33 => ⟨S64, .f32⟩
  | 34 => ⟨S100000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x64, .f32⟩
  | 41 => ⟨S64x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_call2_v0 : Ref sig .tc := ⟨.hbm, 113, rfl⟩
abbrev main_call2_v1 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_c_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_20 : Ref sig .tc := ⟨.hbm, 125, rfl⟩
abbrev main_v88 : Ref sig .tc := ⟨.hbm, 126, rfl⟩
abbrev main_v89 : Ref sig .tc := ⟨.hbm, 127, rfl⟩
abbrev main_c_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_22 : Ref sig .tc := ⟨.hbm, 135, rfl⟩
abbrev main_v96 : Ref sig .tc := ⟨.hbm, 136, rfl⟩
abbrev main_v97 : Ref sig .tc := ⟨.hbm, 137, rfl⟩
abbrev main_c_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_24 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_25 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_26 : Ref sig .tc := ⟨.hbm, 158, rfl⟩
abbrev main_v115 : Ref sig .tc := ⟨.hbm, 159, rfl⟩
abbrev main_cst_27 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_28 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelFrame.Region0.lean ====
/-
  The first linear layer's launch, at the word level and at the ideal instance alike (any `F`).
  Twenty grid points; point `t` is handed rows 5000·t … 5000·t+4999 of the node features (window 0), the whole
  64×128 weight matrix (window 1, fetched once: its block index never moves) and writes the 5000×128 block of
  products back (window 2). The body reads both inputs whole, stores one whole block: what the output's staging
  buffer holds after the body is a single piece, the matrix product of the two input blocks.
  Everything is stated at a parameter `V`: the buffer contents the launch is entered from.
-/
import proofs.«424110_j77214922048129_1_alg».proof.Proof.Gen.Kernel.Launch
import proofs.«424110_j77214922048129_1_alg».proof.Proof.Gen.Kernel.Skeleton
import proofs.«424110_j77214922048129_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is still in its staging buffer at every later point: its block index is constant. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S5000x64 := Rect.unit (s := S5000x64) ![0, 0] S5000x64.size inb_S5000x64_S5000x64_0_0
abbrev rW0 : Rect S64x128 := Rect.unit (s := S64x128) ![0, 0] S64x128.size inb_S64x128_S64x128_0_0
abbrev rO0 : Rect S5000x128 := Rect.unit (s := S5000x128) ![0, 0] S5000x128.size inb_S5000x128_S5000x128_0_0

/-- The output block after the body: one whole-block store of the product of the two input blocks. -/
def out0_2 (x0 : Vec F S5000x64 .f32) (x1 : Vec F S64x128 .f32) : Vec F S5000x128 .f32 :=
  View.canon [⟨rO0, k0_pay1 (View.ld x0 rX0) (View.ld x1 rW0)⟩]

theorem cover0_2 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

set_option maxHeartbeats 1000000 in
/-- The body on whole staging buffers: the inputs are left as they were, the output holds the product. -/
theorem sound_kernel0 (c : Dev nD) (E : Set ℕ) (i : grid0.Coords)
    (arg1 : Memref sig .tc .vmem S5000x64 .f32) (harg1 : arg1.IsWhole) (arg2 : Memref sig .tc .vmem S64x128 .f32) (harg2 : arg2.IsWhole)
    (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data: arrays as found; after the body each input buffer still holds its block, the output
    buffer the product of the two; nothing carried from point to point, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frames

end
-- ==== Proof.KernelFrame.Region1.lean ====
/-
  The bias / layer-norm / relu launch, at the word level and at the ideal instance alike (any `F`).
  Twenty grid points; point `t` is handed rows 5000·t … 5000·t+4999 of the 100000×128 activations (window 0), the
  three 1×128 rows — bias, scale, shift — (windows 1, 2, 3, each fetched once: its block index never moves) and
  writes the 5000×128 block of normalised, rectified rows back (window 4). The body reads the four inputs whole,
  stores one whole block: what the output's staging buffer holds after the body is a single piece, the row-wise
  function of the four input blocks.
  Everything is stated at a parameter `V`: the buffer contents the launch is entered from.
-/
import proofs.«424110_j77214922048129_1_alg».proof.Proof.Gen.Kernel.Launch
import proofs.«424110_j77214922048129_1_alg».proof.Proof.Gen.Kernel.Skeleton
import proofs.«424110_j77214922048129_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the activations is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row, fetched once, is still in its staging buffer at every later point: its block index is constant. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scale row, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The shift row, likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S5000x128 := Rect.unit (s := S5000x128) ![0, 0] S5000x128.size inb_S5000x128_S5000x128_0_0
abbrev rB1 : Rect S1x128 := Rect.unit (s := S1x128) ![0, 0] S1x128.size inb_S1x128_S1x128_0_0
abbrev rO1 : Rect S5000x128 := Rect.unit (s := S5000x128) ![0, 0] S5000x128.size inb_S5000x128_S5000x128_0_0

/-- The output block after the body: one whole-block store of the row-wise function of the four input blocks. -/
def out1_4 (x0 : Vec F S5000x128 .f32) (x1 x2 x3 : Vec F S1x128 .f32) : Vec F S5000x128 .f32 :=
  View.canon [⟨rO1, k1_pay1 (View.ld x0 rX1) (View.ld x1 rB1) (View.ld x2 rB1) (View.ld x3 rB1)⟩]

theorem cover1_4 (p0 : Vec F S5000x128 .f32) (y : S5000x128.Idx) :
    ∃ pc ∈ ([⟨rO1, p0⟩] : List (View.Piece (Elt F) S5000x128 .f32)), y ∈ pc.1.set :=
  View.cover_of_tiled [⟨rO1, p0⟩] S5000x128.size (by rfl) y

set_option maxHeartbeats 1000000 in
/-- The body on whole staging buffers: the inputs are left as they were, the output holds the function of the four. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_ln_relu_kernel i arg1 harg1 arg2 harg2 arg3 harg3 arg4 harg4 arg5 harg5) K := by
  simp only [cc1__bias_ln_relu_kernel_eq_skeleton]; unfold cc1__bias_ln_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The launch's proof data: arrays as found; after the body each input buffer still holds its block, the output
    buffer the row-wise function of the four; nothing carried from point to point, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Frames

end
-- ==== Proof.KernelFrame.Region2.lean ====
/-
  The second linear layer's launch, at the word level and at the ideal instance alike (any `F`).
  Twenty grid points; point `t` is handed rows 5000·t … 5000·t+4999 of the normalised activations (window 0), the
  whole 128×64 weight matrix (window 1, fetched once: its block index never moves) and writes the 5000×64 block of
  products back (window 2). The body reads both inputs whole, stores one whole block: what the output's staging
  buffer holds after the body is a single piece, the matrix product of the two input blocks.
  Everything is stated at a parameter `V`: the buffer contents the launch is entered from.
-/
import proofs.«424110_j77214922048129_1_alg».proof.Proof.Gen.Kernel.Launch
import proofs.«424110_j77214922048129_1_alg».proof.Proof.Gen.Kernel.Skeleton
import proofs.«424110_j77214922048129_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the activations is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is still in its staging buffer at every later point: its block index is constant. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rX2 : Rect S5000x128 := Rect.unit (s := S5000x128) ![0, 0] S5000x128.size inb_S5000x128_S5000x128_0_0
abbrev rW2 : Rect S128x64 := Rect.unit (s := S128x64) ![0, 0] S128x64.size inb_S128x64_S128x64_0_0
abbrev rO2 : Rect S5000x64 := Rect.unit (s := S5000x64) ![0, 0] S5000x64.size inb_S5000x64_S5000x64_0_0

/-- The output block after the body: one whole-block store of the product of the two input blocks. -/
def out2_2 (x0 : Vec F S5000x128 .f32) (x1 : Vec F S128x64 .f32) : Vec F S5000x64 .f32 :=
  View.canon [⟨rO2, k2_pay1 (View.ld x0 rX2) (View.ld x1 rW2)⟩]

theorem cover2_2 (p0 : Vec F S5000x64 .f32) (y : S5000x64.Idx) :
    ∃ pc ∈ ([⟨rO2, p0⟩] : List (View.Piece (Elt F) S5000x64 .f32)), y ∈ pc.1.set :=
  View.cover_of_tiled [⟨rO2, p0⟩] S5000x64.size (by rfl) y

set_option maxHeartbeats 1000000 in
/-- The body on whole staging buffers: the inputs are left as they were, the output holds the product. -/
theorem sound_kernel2 (c : Dev nD) (E : Set ℕ) (i : grid2.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The launch's proof data: arrays as found; after the body each input buffer still holds its block, the output
    buffer the product of the two; nothing carried from point to point, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Frames

end
-- ==== Proof.KernelFrame.Region3.lean ====
/-
  The pooling launch, at the word level and at the ideal instance alike (any `F`).
  Twenty grid points; point `t` is handed rows 5000·t … 5000·t+4999 of the one-hot assignment matrix (window 0) and of
  the node features (window 1). A 64×64 accumulator lives in a scoped buffer of the kernel's own: the first point
  zeroes it, every point adds to it the product of the two row blocks contracted over their rows, and copies it whole
  into the output's staging buffer (window 2, whose block index never moves: written back after the last point only).
  With `acc 0` the zero block and `acc (n+1) = step (block₀ n) (block₁ n) (acc n)`, the accumulator and the output's
  buffer both hold `acc (t+1)` after point `t`.
  Everything is stated at a parameter `V`: the buffer contents the launch is entered from.
-/
import proofs.«424110_j77214922048129_1_alg».proof.Proof.Gen.Kernel.Launch
import proofs.«424110_j77214922048129_1_alg».proof.Proof.Gen.Kernel.Skeleton
import proofs.«424110_j77214922048129_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the assignment matrix is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The row block of the features is in its staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rA3 : Rect S5000x64 := Rect.unit (s := S5000x64) ![0, 0] S5000x64.size inb_S5000x64_S5000x64_0_0
abbrev rS3 : Rect S64x64 := Rect.unit (s := S64x64) ![0, 0] S64x64.size inb_S64x64_S64x64_0_0

/-- The accumulator before the first product: one whole-block store of zeros. -/
def zero3 : Vec F S64x64 .f32 := View.canon [⟨rS3, k3_pay1 (F := F)⟩]

/-- One point's step: the accumulator plus the product of the two row blocks, contracted over their rows. -/
def step3 (x0 : Vec F S5000x64 .bf16) (x1 : Vec F S5000x64 .f32) (s : Vec F S64x64 .f32) : Vec F S64x64 .f32 :=
  View.canon [⟨rS3, k3_pay2 (View.ld x0 rA3) (View.ld x1 rA3) (View.ld s rS3)⟩]

/-- The accumulator after `n` points: zero, then one step per point on that point's row blocks. -/
def acc3 (c : Dev nD) : ℕ → Vec F S64x64 .f32
  | 0 => zero3
  | n + 1 => if h : n < cfg3.N then step3 (iblk3 V c 0 ⟨n, h⟩) (iblk3 V c 1 ⟨n, h⟩) (acc3 c n) else acc3 c n

theorem acc3_succ (c : Dev nD) (t : Fin cfg3.N) :
    acc3 V c (t.val + 1) = step3 (iblk3 V c 0 t) (iblk3 V c 1 t) (acc3 V c t.val) := by
  rw [acc3, dif_pos t.isLt]

/-- The core's scoped buffers other than this launch's staging buffers and its accumulator, each whole at some contents. -/
def rest3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The launch's proof data: arrays as found; after the body each input buffer still holds its block, the output
    buffer the accumulator after this point; the accumulator is carried from point to point; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c (t.val + 1)
  Φ j := if j.val = 0 then Pipeline.ΦA spec3 c
    else iprop(rest3 (F := F) c ∗ owns (c : Thread nD τ) (Memref.whole cc3_scratch0) fullShare (acc3 V c j.val) ∗ ∃ r, prngReg c r)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c (t.val + 1) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The kernel's branch condition on the grid coordinate, as the body spells it. -/
abbrev cond3 (i : grid3.Coords) : Prop :=
  (Scalar.cmpi .ne (Scalar.extui (Scalar.cmpi .eq (BitVec.ofNat 32 (i 0).val) 0#32)) 0#32) = 1#1

/-- It holds at the first point only. -/
theorem hcond3 : ∀ t : Fin cfg3.N, cond3 (grid3.coords t) ↔ t.val = 0 :=
  (by decide +kernel : ∀ t : Fin grid3.N, cond3 (grid3.coords t) ↔ t.val = 0)

theorem off3 : (![0, 0] : Fin 2 → ℕ) = fun _ => 0 := by
  funext a; fin_cases a <;> rfl

theorem cover3 (L : List (View.Piece (Elt F) S64x64 .f32)) (p0 : Vec F S64x64 .f32) (y : S64x64.Idx) :
    ∃ pc ∈ ((⟨rS3, p0⟩ : View.Piece (Elt F) S64x64 .f32) :: L), y ∈ pc.1.set :=
  ⟨_, List.mem_cons_self, View.mem_set_unit_zero (S := S64x64) off3 inb_S64x64_S64x64_0_0 y⟩

set_option maxHeartbeats 1000000 in
/-- The body at a later point, on whole buffers: the inputs are left as they were; the accumulator, found at `s`, is
    left one step further, and so is the output's buffer. -/
theorem sound_kernel3_later (c : Dev nD) (E : Set ℕ) (i : grid3.Coords) (hc : ¬cond3 i)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (x0 : Vec F S5000x64 .bf16) (x1 : Vec F S5000x64 .f32) (s : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (step3 x0 x1 s) ∗ owns (c : Thread nD τ) arg4 fullShare (step3 x0 x1 s)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (View.read_writes_eq_canon _ _ _ (cover3 _ _)).trans ?_
    rw [View.readCov_unit_zero _ off3]
    rfl
  iexists _; isplitr
  swap; · iexact H3
  ipureintro
  sl_unfold_run_names
  exact View.read_writes_eq_canon _ _ _ (cover3 _ _)

set_option maxHeartbeats 1000000 in
/-- The body at the first point: the accumulator, found at anything, is zeroed and then left one step from zero. -/
theorem sound_kernel3_first (c : Dev nD) (E : Set ℕ) (i : grid3.Coords) (hc : cond3 i)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (x0 : Vec F S5000x64 .bf16) (x1 : Vec F S5000x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d)
        ∗ (iprop(owns (c : Thread nD τ) arg1 fullShare x0 ∗ owns (c : Thread nD τ) arg2 fullShare x1
            ∗ owns (c : Thread nD τ) arg3 fullShare (step3 x0 x1 zero3) ∗ owns (c : Thread nD τ) arg4 fullShare (step3 x0 x1 zero3)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    unfold step3 zero3
    simp only [View.read_writes_eq_canon _ _ _ (cover3 _ _), View.readCov_eq_canon_ld _ _ _ (cover3 _ _), View.readAt_eq_ld,
      View.ld_unit_zero (S := S64x64) off3, View.ld_unit_zero (S := S5000x64) off3, View.canon_cons_unit_zero (S := S64x64) off3]
  iexists _; isplitr
  swap; · iexact H3
  ipureintro
  sl_unfold_run_names
  unfold step3 zero3
  simp only [View.read_writes_eq_canon _ _ _ (cover3 _ _), View.readCov_eq_canon_ld _ _ _ (cover3 _ _), View.readAt_eq_ld,
    View.ld_unit_zero (S := S64x64) off3, View.ld_unit_zero (S := S5000x64) off3, View.canon_cons_unit_zero (S := S64x64) off3]

theorem Phi3_zero (c : Dev nD) (j : Fin (cfg3.N + 1)) (hj : j.val = 0) : (dat3 V c).Φ j = Pipeline.ΦA spec3 c := by
  dsimp only [dat3]; rw [if_pos hj]

theorem Phi3_pos (c : Dev nD) (j : Fin (cfg3.N + 1)) (hj : j.val ≠ 0) :
    (dat3 V c).Φ j = iprop(rest3 (F := F) c ∗ owns (c : Thread nD τ) (Memref.whole cc3_scratch0) fullShare (acc3 V c j.val) ∗ ∃ r, prngReg c r) := by
  dsimp only [dat3]; rw [if_neg hj]

/-- The class's invariant with the accumulator split off the other scoped buffers, as a memref owned at some contents. -/
theorem PhiA3_eq (c : Dev nD) :
    (Pipeline.ΦA spec3 c : sProp 𝕄)
      = iprop(rest3 (F := F) c ∗ (∃ d, owns (c : Thread nD τ) (Memref.whole cc3_scratch0) fullShare d) ∗ ∃ r, prngReg c r) := by
  unfold Pipeline.ΦA rest3; rw [scopedRest3_eq]; simp only [owns_whole]
  refine BI.equiv_iff.mp ⟨?_, ?_⟩
  · show (_ : sProp 𝕄) ⊢ _
    iintro ⟨⟨H1, H2, H3, H4, H5, H6, H7, H8, H9, H10, H11, H12, H13, H14, H15, H16, H17, HS⟩, Hg⟩
    isplitl [H1 H2 H3 H4 H5 H6 H7 H8 H9 H10 H11 H12 H13 H14 H15 H16 H17]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    isplitl [HS]; · iexact HS
    iexact Hg
  · show (_ : sProp 𝕄) ⊢ _
    iintro ⟨⟨H1, H2, H3, H4, H5, H6, H7, H8, H9, H10, H11, H12, H13, H14, H15, H16, H17⟩, HS, Hg⟩
    isplitr [Hg]
    swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact HS

theorem coord3 : ∀ t : Fin cfg3.N, ((grid3.coords t) 0).val = t.val :=
  (by decide +kernel : ∀ t : Fin grid3.N, ((grid3.coords t) 0).val = t.val)

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    after3_0, after3_1, after3_2, Phi3_pos V c t.succ (by rw [Fin.val_succ]; omega), Fin.val_succ, acc3_succ]
  by_cases hz : t.val = 0
  · rw [Phi3_zero V c t.castSucc (by rw [Fin.coe_castSucc]; exact hz), PhiA3_eq,
      show acc3 V c t.val = zero3 from by rw [hz]; rfl]
    iintro ⟨⟨HR, ⟨%s, HS⟩, Hg⟩, Ho, ⟨%d0, H0⟩, ⟨%d1, H1⟩, ⟨%d2, H2⟩⟩
    iapply (sound_kernel3_first c Set.univ _ ((hcond3 t).mpr hz) _ _ _ _ _ _ _ _ (iblk3 V c 0 t) (iblk3 V c 1 t) _)
    isplitl [H0]; · iexact H0
    isplitl [H1]; · iexact H1
    isplitl [H2]; · iexists _; iexact H2
    isplitl [HS]; · iexists _; iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexact H2
  · rw [Phi3_pos V c t.castSucc (by rw [Fin.coe_castSucc]; exact hz), Fin.coe_castSucc]
    iintro ⟨⟨HR, HS, Hg⟩, Ho, ⟨%d0, H0⟩, ⟨%d1, H1⟩, ⟨%d2, H2⟩⟩
    iapply (sound_kernel3_later c Set.univ _ (fun h => hz ((hcond3 t).mp h)) _ _ _ _ _ _ _ _ (iblk3 V c 0 t) (iblk3 V c 1 t) (acc3 V c t.val) _)
    isplitl [H0]; · iexact H0
    isplitl [H1]; · iexact H1
    isplitl [H2]; · iexists _; iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexact H2

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [Phi3_zero V c 0 rfl]

/-- After the last point the invariant gives the class's back: the accumulator's contents are forgotten. -/
theorem hout3 (c : Dev nD) : (dat3 V c).Φ (Fin.last cfg3.N) ⊢ Pipeline.ΦA spec3 c := by
  rw [Phi3_pos V c _ (by rw [Fin.val_last]; have : cfg3.N = 20 := N_3; omega), PhiA3_eq]
  iintro ⟨HR, HS, Hg⟩
  isplitl [HR]; · iexact HR
  isplitl [HS]; · iexists _; iexact HS
  iexact Hg

end Cert.Kernel.Frames

end
-- ==== Proof.KernelFrame.Run.lean ====
/-
  The whole program at any instance `F`: its host stretches and its four launches run one after the other.
  Between two items every unscoped buffer is held at a named valuation: the launch memory, then each host
  stretch's operations applied, then what each launch's write-backs leave in its windows' arrays. The run ends
  with every unscoped buffer at the last valuation; the arguments are never written, so they end as launched.
-/
import proofs.«424110_j77214922048129_1_alg».proof.Proof.KernelFrame.Region0
import proofs.«424110_j77214922048129_1_alg».proof.Proof.KernelFrame.Region1
import proofs.«424110_j77214922048129_1_alg».proof.Proof.KernelFrame.Region2
import proofs.«424110_j77214922048129_1_alg».proof.Proof.KernelFrame.Region3
import proofs.«424110_j77214922048129_1_alg».proof.Proof.Gen.Kernel.Regions

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations between the items -/

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)
abbrev VE0 : (c : Dev nD) → (b : Ref sig .tc) → Buf (Elt F) ((c : Thread nD τ).loc b) := fun c b => W3 m c b

/-- After launch 0: its windows' arrays at what its write-backs leave, every other buffer as entered. -/
def W4 (c : Dev nD) : Valuation τ sig (Elt F) :=
  Pipeline.withArrays spec0 c (W3 m c) fun w => (dat0 (VE0 m) c).arrAt w cfg0.N
theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev VX0 : (c : Dev nD) → (b : Ref sig .tc) → Buf (Elt F) ((c : Thread nD τ).loc b) := fun c b => W4 m c b
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)

abbrev W5 : Dev nD → Valuation τ sig (Elt F) := fun c => StableHlo.after hostOps1 (W4 m c)
abbrev VE1 : (c : Dev nD) → (b : Ref sig .tc) → Buf (Elt F) ((c : Thread nD τ).loc b) := fun c b => W5 m c b

/-- After launch 1: its windows' arrays at what its write-backs leave, every other buffer as entered. -/
def W6 (c : Dev nD) : Valuation τ sig (Elt F) :=
  Pipeline.withArrays spec1 c (W5 m c) fun w => (dat1 (VE1 m) c).arrAt w cfg1.N
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VE2 : (c : Dev nD) → (b : Ref sig .tc) → Buf (Elt F) ((c : Thread nD τ).loc b) := fun c b => W6 m c b
theorem hF1 (c : Dev nD) (w : Fin cfg1.W) : (dat1 (VE1 m) c).arrAt w cfg1.N = VE2 m c (Pipeline.arrRef spec1 w) :=
  (W6_arr m c w).symm
theorem hrest1 (c : Dev nD) : ∀ b, b ∉ Finset.univ.image (Pipeline.arrRef spec1) → VE2 m c b = VE1 m c b :=
  fun b hb => W6_of_ne m c b fun w e => hb (Finset.mem_image.mpr ⟨w, Finset.mem_univ _, e⟩)

/-- After launch 2: its windows' arrays at what its write-backs leave, every other buffer as entered. -/
def W7 (c : Dev nD) : Valuation τ sig (Elt F) :=
  Pipeline.withArrays spec2 c (W6 m c) fun w => (dat2 (VE2 m) c).arrAt w cfg2.N
theorem W7_arr (c : Dev nD) (w : Fin cfg2.W) :
    W7 m c (Proc.devRef .tc (Pipeline.arrRef spec2 w)) = (dat2 (VE2 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev VX2 : (c : Dev nD) → (b : Ref sig .tc) → Buf (Elt F) ((c : Thread nD τ).loc b) := fun c b => W7 m c b
theorem hF2 (c : Dev nD) (w : Fin cfg2.W) : (dat2 (VE2 m) c).arrAt w cfg2.N = VX2 m c (Pipeline.arrRef spec2 w) :=
  (W7_arr m c w).symm
theorem hrest2 (c : Dev nD) : ∀ b, b ∉ Finset.univ.image (Pipeline.arrRef spec2) → VX2 m c b = VE2 m c b :=
  fun b hb => W7_of_ne m c b fun w e => hb (Finset.mem_image.mpr ⟨w, Finset.mem_univ _, e⟩)

abbrev W8 : Dev nD → Valuation τ sig (Elt F) := fun c => StableHlo.after hostOps3 (W7 m c)
abbrev VE3 : (c : Dev nD) → (b : Ref sig .tc) → Buf (Elt F) ((c : Thread nD τ).loc b) := fun c b => W8 m c b

/-- After launch 3: its windows' arrays at what its write-backs leave, every other buffer as entered. -/
def W9 (c : Dev nD) : Valuation τ sig (Elt F) :=
  Pipeline.withArrays spec3 c (W8 m c) fun w => (dat3 (VE3 m) c).arrAt w cfg3.N
theorem W9_arr (c : Dev nD) (w : Fin cfg3.W) :
    W9 m c (Proc.devRef .tc (Pipeline.arrRef spec3 w)) = (dat3 (VE3 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev VX3 : (c : Dev nD) → (b : Ref sig .tc) → Buf (Elt F) ((c : Thread nD τ).loc b) := fun c b => W9 m c b
theorem hF3 (c : Dev nD) (w : Fin cfg3.W) : (dat3 (VE3 m) c).arrAt w cfg3.N = VX3 m c (Pipeline.arrRef spec3 w) :=
  (W9_arr m c w).symm
theorem hrest3 (c : Dev nD) : ∀ b, b ∉ Finset.univ.image (Pipeline.arrRef spec3) → VX3 m c b = VE3 m c b :=
  fun b hb => W9_of_ne m c b fun w e => hb (Finset.mem_image.mpr ⟨w, Finset.mem_univ _, e⟩)

abbrev W10 : Dev nD → Valuation τ sig (Elt F) := fun c => StableHlo.after hostOps4 (W9 m c)

/-! ## The proof data family and the thread state -/

/-- Every launch's proof data, each at the contents its launch is entered from. -/
def pdats : (p : Fin 4) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
  | ⟨2, _⟩ => fun c => dat2 (VE2 m) c
  | ⟨3, _⟩ => fun c => dat3 (VE3 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The launches as items -/

set_option backward.isDefEq.respectTransparency.types false in
/-- Launch 0 between the valuations before and after it: its windows' arrays are split out of the unscoped
    buffers on entry and put back at their final contents on exit; the generator register rides in the invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 between the valuations before and after it: its windows' arrays are split out of the unscoped
    buffers on entry and put back at their final contents on exit; the generator register rides in the invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VE2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 between the valuations before and after it: its windows' arrays are split out of the unscoped
    buffers on entry and put back at their final contents on exit; the generator register rides in the invariant. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 between the valuations before and after it: its windows' arrays are split out of the unscoped
    buffers on entry and put back at their final contents on exit; the generator register rides in the invariant. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (VE3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 3).pre c (fun _ => fullShare) (adm (F := F) 3).1
          ∗ Pipeline.scopedRest (Pipeline.pin (pcfgs (F := F)) adm 3).spec c) ⊢ (Pipeline.ΦA spec3 c : sProp 𝕄) := by
      unfold Pipeline.ΦA
      iintro ⟨Hp, -, Hr⟩
      isplitl [Hr]; · iexact Hr
      iexact Hp
    exact h1.trans (hin3 (VE3 m) c)
  hout c := by
    rw [Pipeline.ownSems0_none]
    have h1 : (Pipeline.ΦA spec3 c : sProp 𝕄) ⊢ iprop((∃ r, prngReg c r) ∗ BI.emp
          ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (hout3 (VE3 m) c).trans h1
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VE3 m c) (VX3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev items : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)) ]

theorem main_run (c : Dev nD) : main (F := F) c = Pipeline.Seg.run (items m) := (main_chain c).trans (by chain_rfl)

set_option backward.isDefEq.respectTransparency.types false in
/-- Every weakly fair execution of the program from memory `m` with zero counters terminates, nothing faulting,
    with every unscoped buffer of every core at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Frames

end
-- ==== Proof.KernelFrame.Frame.lean ====
/-
  The arguments are never written: no host operation names one as its result, and a launch reads an argument
  through an input window (whose array the write-backs leave alone) or not at all. So each argument's buffer at the
  last valuation walks back, item by item, to its launch contents; the run then gives the frame claim, and the two
  result buffers at the last valuation.
-/
import proofs.«424110_j77214922048129_1_alg».proof.Proof.KernelFrame.Run

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W10_main_arg0 (c : Dev nD) : W10 m c (Proc.devRef .tc main_arg0) = m ((c : Thread nD τ).loc main_arg0) :=
  calc W10 m c (Proc.devRef .tc main_arg0)
    _ = W9 m c (Proc.devRef .tc main_arg0) := StableHlo.after_of_writes_sub hostOps4 _ hostOps4_writes (by decide)
    _ = W8 m c (Proc.devRef .tc main_arg0) := W9_of_ne m c main_arg0 (by decide)
    _ = W7 m c (Proc.devRef .tc main_arg0) := StableHlo.after_of_writes_sub hostOps3 _ hostOps3_writes (by decide)
    _ = W6 m c (Proc.devRef .tc main_arg0) := W7_of_ne m c main_arg0 (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (VE0 m) c).arrAt_in 0 rfl _).trans (A_eq0 (VE0 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W10_main_arg1 (c : Dev nD) : W10 m c (Proc.devRef .tc main_arg1) = m ((c : Thread nD τ).loc main_arg1) :=
  calc W10 m c (Proc.devRef .tc main_arg1)
    _ = W9 m c (Proc.devRef .tc main_arg1) := StableHlo.after_of_writes_sub hostOps4 _ hostOps4_writes (by decide)
    _ = W8 m c (Proc.devRef .tc main_arg1) := W9_of_ne m c main_arg1 (by decide)
    _ = W7 m c (Proc.devRef .tc main_arg1) := StableHlo.after_of_writes_sub hostOps3 _ hostOps3_writes (by decide)
    _ = W6 m c (Proc.devRef .tc main_arg1) := W7_of_ne m c main_arg1 (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W10_main_arg2 (c : Dev nD) : W10 m c (Proc.devRef .tc main_arg2) = m ((c : Thread nD τ).loc main_arg2) :=
  calc W10 m c (Proc.devRef .tc main_arg2)
    _ = W9 m c (Proc.devRef .tc main_arg2) := StableHlo.after_of_writes_sub hostOps4 _ hostOps4_writes (by decide)
    _ = W8 m c (Proc.devRef .tc main_arg2) := W9_of_ne m c main_arg2 (by decide)
    _ = W7 m c (Proc.devRef .tc main_arg2) := StableHlo.after_of_writes_sub hostOps3 _ hostOps3_writes (by decide)
    _ = W6 m c (Proc.devRef .tc main_arg2) := W7_of_ne m c main_arg2 (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W10_main_arg3 (c : Dev nD) : W10 m c (Proc.devRef .tc main_arg3) = m ((c : Thread nD τ).loc main_arg3) :=
  calc W10 m c (Proc.devRef .tc main_arg3)
    _ = W9 m c (Proc.devRef .tc main_arg3) := StableHlo.after_of_writes_sub hostOps4 _ hostOps4_writes (by decide)
    _ = W8 m c (Proc.devRef .tc main_arg3) := W9_of_ne m c main_arg3 (by decide)
    _ = W7 m c (Proc.devRef .tc main_arg3) := StableHlo.after_of_writes_sub hostOps3 _ hostOps3_writes (by decide)
    _ = W6 m c (Proc.devRef .tc main_arg3) := W7_of_ne m c main_arg3 (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := (W4_arr m c 1).trans (((dat0 (VE0 m) c).arrAt_in 1 rfl _).trans (A_eq0 (VE0 m) c 1))
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

theorem W10_main_arg4 (c : Dev nD) : W10 m c (Proc.devRef .tc main_arg4) = m ((c : Thread nD τ).loc main_arg4) :=
  calc W10 m c (Proc.devRef .tc main_arg4)
    _ = W9 m c (Proc.devRef .tc main_arg4) := StableHlo.after_of_writes_sub hostOps4 _ hostOps4_writes (by decide)
    _ = W8 m c (Proc.devRef .tc main_arg4) := W9_of_ne m c main_arg4 (by decide)
    _ = W7 m c (Proc.devRef .tc main_arg4) := StableHlo.after_of_writes_sub hostOps3 _ hostOps3_writes (by decide)
    _ = W6 m c (Proc.devRef .tc main_arg4) := W7_of_ne m c main_arg4 (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

theorem W10_main_arg5 (c : Dev nD) : W10 m c (Proc.devRef .tc main_arg5) = m ((c : Thread nD τ).loc main_arg5) :=
  calc W10 m c (Proc.devRef .tc main_arg5)
    _ = W9 m c (Proc.devRef .tc main_arg5) := StableHlo.after_of_writes_sub hostOps4 _ hostOps4_writes (by decide)
    _ = W8 m c (Proc.devRef .tc main_arg5) := W9_of_ne m c main_arg5 (by decide)
    _ = W7 m c (Proc.devRef .tc main_arg5) := StableHlo.after_of_writes_sub hostOps3 _ hostOps3_writes (by decide)
    _ = W6 m c (Proc.devRef .tc main_arg5) := W7_of_ne m c main_arg5 (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

theorem W10_main_arg6 (c : Dev nD) : W10 m c (Proc.devRef .tc main_arg6) = m ((c : Thread nD τ).loc main_arg6) :=
  calc W10 m c (Proc.devRef .tc main_arg6)
    _ = W9 m c (Proc.devRef .tc main_arg6) := StableHlo.after_of_writes_sub hostOps4 _ hostOps4_writes (by decide)
    _ = W8 m c (Proc.devRef .tc main_arg6) := W9_of_ne m c main_arg6 (by decide)
    _ = W7 m c (Proc.devRef .tc main_arg6) := StableHlo.after_of_writes_sub hostOps3 _ hostOps3_writes (by decide)
    _ = W6 m c (Proc.devRef .tc main_arg6) := W7_of_ne m c main_arg6 (by decide)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

theorem W10_main_arg7 (c : Dev nD) : W10 m c (Proc.devRef .tc main_arg7) = m ((c : Thread nD τ).loc main_arg7) :=
  calc W10 m c (Proc.devRef .tc main_arg7)
    _ = W9 m c (Proc.devRef .tc main_arg7) := StableHlo.after_of_writes_sub hostOps4 _ hostOps4_writes (by decide)
    _ = W8 m c (Proc.devRef .tc main_arg7) := W9_of_ne m c main_arg7 (by decide)
    _ = W7 m c (Proc.devRef .tc main_arg7) := StableHlo.after_of_writes_sub hostOps3 _ hostOps3_writes (by decide)
    _ = W6 m c (Proc.devRef .tc main_arg7) := (W7_arr m c 1).trans (((dat2 (VE2 m) c).arrAt_in 1 rfl _).trans (A_eq2 (VE2 m) c 1))
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl

theorem W10_main_arg8 (c : Dev nD) : W10 m c (Proc.devRef .tc main_arg8) = m ((c : Thread nD τ).loc main_arg8) :=
  calc W10 m c (Proc.devRef .tc main_arg8)
    _ = W9 m c (Proc.devRef .tc main_arg8) := StableHlo.after_of_writes_sub hostOps4 _ hostOps4_writes (by decide)
    _ = W8 m c (Proc.devRef .tc main_arg8) := W9_of_ne m c main_arg8 (by decide)
    _ = W7 m c (Proc.devRef .tc main_arg8) := StableHlo.after_of_writes_sub hostOps3 _ hostOps3_writes (by decide)
    _ = W6 m c (Proc.devRef .tc main_arg8) := W7_of_ne m c main_arg8 (by decide)
    _ = W5 m c (Proc.devRef .tc main_arg8) := W6_of_ne m c main_arg8 (by decide)
    _ = W4 m c (Proc.devRef .tc main_arg8) := StableHlo.after_of_writes_sub hostOps1 _ hostOps1_writes (by decide)
    _ = W3 m c (Proc.devRef .tc main_arg8) := W4_of_ne m c main_arg8 (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl

/-- The frame claim at any `F`: the program runs to the end, nothing faults, the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c),
    (h c _ (mem_uc main_arg8 (by decide))).trans (W10_main_arg8 m c)⟩) (run_all m ρ)

/-- The run with its two results named: each result buffer ends at the last valuation's contents. -/
theorem run_results (ρ : Dev nD → PrngReg) :
    θ_run defs (onTc (τ := τ) (main (F := F))) ⟨m, fun _ => 0, ρ⟩ (fun r => ∀ c : Dev nD,
      r.2.mem ((c.tc : Thread nD τ).loc main_v64) = W10 m c (Proc.devRef .tc main_v64)
      ∧ r.2.mem ((c.tc : Thread nD τ).loc main_v81) = W10 m c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v64 (by decide)), h c _ (mem_uc main_v81 (by decide)),
    (h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c),
    (h c _ (mem_uc main_arg8 (by decide))).trans (W10_main_arg8 m c)⟩) (run_all m ρ)

end Cert.Kernel.Frames

end
-- ==== Proof.KernelIdealFrame.Region0.lean ====
/-
  The first linear layer's launch, at the word level and at the ideal instance alike (any `F`).
  Twenty grid points; point `t` is handed rows 5000·t … 5000·t+4999 of the node features (window 0), the whole
  64×128 weight matrix (window 1, fetched once: its block index never moves) and writes the 5000×128 block of
  products back (window 2). The body reads both inputs whole, stores one whole block: what the output's staging
  buffer holds after the body is a single piece, the matrix product of the two input blocks.
  Everything is stated at a parameter `V`: the buffer contents the launch is entered from.
-/
import proofs.«424110_j77214922048129_1_alg».proof.Proof.Gen.KernelIdeal.Launch
import proofs.«424110_j77214922048129_1_alg».proof.Proof.Gen.KernelIdeal.Skeleton
import proofs.«424110_j77214922048129_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is still in its staging buffer at every later point: its block index is constant. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S5000x64 := Rect.unit (s := S5000x64) ![0, 0] S5000x64.size inb_S5000x64_S5000x64_0_0
abbrev rW0 : Rect S64x128 := Rect.unit (s := S64x128) ![0, 0] S64x128.size inb_S64x128_S64x128_0_0
abbrev rO0 : Rect S5000x128 := Rect.unit (s := S5000x128) ![0, 0] S5000x128.size inb_S5000x128_S5000x128_0_0

/-- The output block after the body: one whole-block store of the product of the two input blocks. -/
def out0_2 (x0 : Vec F S5000x64 .f32) (x1 : Vec F S64x128 .f32) : Vec F S5000x128 .f32 :=
  View.canon [⟨rO0, k0_pay1 (View.ld x0 rX0) (View.ld x1 rW0)⟩]

theorem cover0_2 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

set_option maxHeartbeats 1000000 in
/-- The body on whole staging buffers: the inputs are left as they were, the output holds the product. -/
theorem sound_kernel0 (c : Dev nD) (E : Set ℕ) (i : grid0.Coords)
    (arg1 : Memref sig .tc .vmem S5000x64 .f32) (harg1 : arg1.IsWhole) (arg2 : Memref sig .tc .vmem S64x128 .f32) (harg2 : arg2.IsWhole)
    (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data: arrays as found; after the body each input buffer still holds its block, the output
    buffer the product of the two; nothing carried from point to point, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frames

end
-- ==== Proof.KernelIdealFrame.Region1.lean ====
/-
  The bias / layer-norm / relu launch, at the word level and at the ideal instance alike (any `F`).
  Twenty grid points; point `t` is handed rows 5000·t … 5000·t+4999 of the 100000×128 activations (window 0), the
  three 1×128 rows — bias, scale, shift — (windows 1, 2, 3, each fetched once: its block index never moves) and
  writes the 5000×128 block of normalised, rectified rows back (window 4). The body reads the four inputs whole,
  stores one whole block: what the output's staging buffer holds after the body is a single piece, the row-wise
  function of the four input blocks.
  Everything is stated at a parameter `V`: the buffer contents the launch is entered from.
-/
import proofs.«424110_j77214922048129_1_alg».proof.Proof.Gen.KernelIdeal.Launch
import proofs.«424110_j77214922048129_1_alg».proof.Proof.Gen.KernelIdeal.Skeleton
import proofs.«424110_j77214922048129_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the activations is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row, fetched once, is still in its staging buffer at every later point: its block index is constant. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scale row, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The shift row, likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S5000x128 := Rect.unit (s := S5000x128) ![0, 0] S5000x128.size inb_S5000x128_S5000x128_0_0
abbrev rB1 : Rect S1x128 := Rect.unit (s := S1x128) ![0, 0] S1x128.size inb_S1x128_S1x128_0_0
abbrev rO1 : Rect S5000x128 := Rect.unit (s := S5000x128) ![0, 0] S5000x128.size inb_S5000x128_S5000x128_0_0

/-- The output block after the body: one whole-block store of the row-wise function of the four input blocks. -/
def out1_4 (x0 : Vec F S5000x128 .f32) (x1 x2 x3 : Vec F S1x128 .f32) : Vec F S5000x128 .f32 :=
  View.canon [⟨rO1, k1_pay1 (View.ld x0 rX1) (View.ld x1 rB1) (View.ld x2 rB1) (View.ld x3 rB1)⟩]

theorem cover1_4 (p0 : Vec F S5000x128 .f32) (y : S5000x128.Idx) :
    ∃ pc ∈ ([⟨rO1, p0⟩] : List (View.Piece (Elt F) S5000x128 .f32)), y ∈ pc.1.set :=
  View.cover_of_tiled [⟨rO1, p0⟩] S5000x128.size (by rfl) y

set_option maxHeartbeats 1000000 in
/-- The body on whole staging buffers: the inputs are left as they were, the output holds the function of the four. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_ln_relu_kernel i arg1 harg1 arg2 harg2 arg3 harg3 arg4 harg4 arg5 harg5) K := by
  simp only [cc1__bias_ln_relu_kernel_eq_skeleton]; unfold cc1__bias_ln_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The launch's proof data: arrays as found; after the body each input buffer still holds its block, the output
    buffer the row-wise function of the four; nothing carried from point to point, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Frames

end
-- ==== Proof.KernelIdealFrame.Region2.lean ====
/-
  The second linear layer's launch, at the word level and at the ideal instance alike (any `F`).
  Twenty grid points; point `t` is handed rows 5000·t … 5000·t+4999 of the normalised activations (window 0), the
  whole 128×64 weight matrix (window 1, fetched once: its block index never moves) and writes the 5000×64 block of
  products back (window 2). The body reads both inputs whole, stores one whole block: what the output's staging
  buffer holds after the body is a single piece, the matrix product of the two input blocks.
  Everything is stated at a parameter `V`: the buffer contents the launch is entered from.
-/
import proofs.«424110_j77214922048129_1_alg».proof.Proof.Gen.KernelIdeal.Launch
import proofs.«424110_j77214922048129_1_alg».proof.Proof.Gen.KernelIdeal.Skeleton
import proofs.«424110_j77214922048129_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the activations is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is still in its staging buffer at every later point: its block index is constant. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rX2 : Rect S5000x128 := Rect.unit (s := S5000x128) ![0, 0] S5000x128.size inb_S5000x128_S5000x128_0_0
abbrev rW2 : Rect S128x64 := Rect.unit (s := S128x64) ![0, 0] S128x64.size inb_S128x64_S128x64_0_0
abbrev rO2 : Rect S5000x64 := Rect.unit (s := S5000x64) ![0, 0] S5000x64.size inb_S5000x64_S5000x64_0_0

/-- The output block after the body: one whole-block store of the product of the two input blocks. -/
def out2_2 (x0 : Vec F S5000x128 .f32) (x1 : Vec F S128x64 .f32) : Vec F S5000x64 .f32 :=
  View.canon [⟨rO2, k2_pay1 (View.ld x0 rX2) (View.ld x1 rW2)⟩]

theorem cover2_2 (p0 : Vec F S5000x64 .f32) (y : S5000x64.Idx) :
    ∃ pc ∈ ([⟨rO2, p0⟩] : List (View.Piece (Elt F) S5000x64 .f32)), y ∈ pc.1.set :=
  View.cover_of_tiled [⟨rO2, p0⟩] S5000x64.size (by rfl) y

set_option maxHeartbeats 1000000 in
/-- The body on whole staging buffers: the inputs are left as they were, the output holds the product. -/
theorem sound_kernel2 (c : Dev nD) (E : Set ℕ) (i : grid2.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The launch's proof data: arrays as found; after the body each input buffer still holds its block, the output
    buffer the product of the two; nothing carried from point to point, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Frames

end
-- ==== Proof.KernelIdealFrame.Region3.lean ====
/-
  The pooling launch, at the word level and at the ideal instance alike (any `F`).
  Twenty grid points; point `t` is handed rows 5000·t … 5000·t+4999 of the one-hot assignment matrix (window 0) and of
  the node features (window 1). A 64×64 accumulator lives in a scoped buffer of the kernel's own: the first point
  zeroes it, every point adds to it the product of the two row blocks contracted over their rows, and copies it whole
  into the output's staging buffer (window 2, whose block index never moves: written back after the last point only).
  With `acc 0` the zero block and `acc (n+1) = step (block₀ n) (block₁ n) (acc n)`, the accumulator and the output's
  buffer both hold `acc (t+1)` after point `t`.
  Everything is stated at a parameter `V`: the buffer contents the launch is entered from.
-/
import proofs.«424110_j77214922048129_1_alg».proof.Proof.Gen.KernelIdeal.Launch
import proofs.«424110_j77214922048129_1_alg».proof.Proof.Gen.KernelIdeal.Skeleton
import proofs.«424110_j77214922048129_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the assignment matrix is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The row block of the features is in its staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rA3 : Rect S5000x64 := Rect.unit (s := S5000x64) ![0, 0] S5000x64.size inb_S5000x64_S5000x64_0_0
abbrev rS3 : Rect S64x64 := Rect.unit (s := S64x64) ![0, 0] S64x64.size inb_S64x64_S64x64_0_0

/-- The accumulator before the first product: one whole-block store of zeros. -/
def zero3 : Vec F S64x64 .f32 := View.canon [⟨rS3, k3_pay1 (F := F)⟩]

/-- One point's step: the accumulator plus the product of the two row blocks, contracted over their rows. -/
def step3 (x0 : Vec F S5000x64 .bf16) (x1 : Vec F S5000x64 .f32) (s : Vec F S64x64 .f32) : Vec F S64x64 .f32 :=
  View.canon [⟨rS3, k3_pay2 (View.ld x0 rA3) (View.ld x1 rA3) (View.ld s rS3)⟩]

/-- The accumulator after `n` points: zero, then one step per point on that point's row blocks. -/
def acc3 (c : Dev nD) : ℕ → Vec F S64x64 .f32
  | 0 => zero3
  | n + 1 => if h : n < cfg3.N then step3 (iblk3 V c 0 ⟨n, h⟩) (iblk3 V c 1 ⟨n, h⟩) (acc3 c n) else acc3 c n

theorem acc3_succ (c : Dev nD) (t : Fin cfg3.N) :
    acc3 V c (t.val + 1) = step3 (iblk3 V c 0 t) (iblk3 V c 1 t) (acc3 V c t.val) := by
  rw [acc3, dif_pos t.isLt]

/-- The core's scoped buffers other than this launch's staging buffers and its accumulator, each whole at some contents. -/
def rest3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The launch's proof data: arrays as found; after the body each input buffer still holds its block, the output
    buffer the accumulator after this point; the accumulator is carried from point to point; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c (t.val + 1)
  Φ j := if j.val = 0 then Pipeline.ΦA spec3 c
    else iprop(rest3 (F := F) c ∗ owns (c : Thread nD τ) (Memref.whole cc3_scratch0) fullShare (acc3 V c j.val) ∗ ∃ r, prngReg c r)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c (t.val + 1) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The kernel's branch condition on the grid coordinate, as the body spells it. -/
abbrev cond3 (i : grid3.Coords) : Prop :=
  (Scalar.cmpi .ne (Scalar.extui (Scalar.cmpi .eq (BitVec.ofNat 32 (i 0).val) 0#32)) 0#32) = 1#1

/-- It holds at the first point only. -/
theorem hcond3 : ∀ t : Fin cfg3.N, cond3 (grid3.coords t) ↔ t.val = 0 :=
  (by decide +kernel : ∀ t : Fin grid3.N, cond3 (grid3.coords t) ↔ t.val = 0)

theorem off3 : (![0, 0] : Fin 2 → ℕ) = fun _ => 0 := by
  funext a; fin_cases a <;> rfl

theorem cover3 (L : List (View.Piece (Elt F) S64x64 .f32)) (p0 : Vec F S64x64 .f32) (y : S64x64.Idx) :
    ∃ pc ∈ ((⟨rS3, p0⟩ : View.Piece (Elt F) S64x64 .f32) :: L), y ∈ pc.1.set :=
  ⟨_, List.mem_cons_self, View.mem_set_unit_zero (S := S64x64) off3 inb_S64x64_S64x64_0_0 y⟩

set_option maxHeartbeats 1000000 in
/-- The body at a later point, on whole buffers: the inputs are left as they were; the accumulator, found at `s`, is
    left one step further, and so is the output's buffer. -/
theorem sound_kernel3_later (c : Dev nD) (E : Set ℕ) (i : grid3.Coords) (hc : ¬cond3 i)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (x0 : Vec F S5000x64 .bf16) (x1 : Vec F S5000x64 .f32) (s : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (step3 x0 x1 s) ∗ owns (c : Thread nD τ) arg4 fullShare (step3 x0 x1 s)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (View.read_writes_eq_canon _ _ _ (cover3 _ _)).trans ?_
    rw [View.readCov_unit_zero _ off3]
    rfl
  iexists _; isplitr
  swap; · iexact H3
  ipureintro
  sl_unfold_run_names
  exact View.read_writes_eq_canon _ _ _ (cover3 _ _)

set_option maxHeartbeats 1000000 in
/-- The body at the first point: the accumulator, found at anything, is zeroed and then left one step from zero. -/
theorem sound_kernel3_first (c : Dev nD) (E : Set ℕ) (i : grid3.Coords) (hc : cond3 i)
    (arg1 : Memref sig .tc .vmem S5000x64 .bf16) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (x0 : Vec F S5000x64 .bf16) (x1 : Vec F S5000x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d)
        ∗ (iprop(owns (c : Thread nD τ) arg1 fullShare x0 ∗ owns (c : Thread nD τ) arg2 fullShare x1
            ∗ owns (c : Thread nD τ) arg3 fullShare (step3 x0 x1 zero3) ∗ owns (c : Thread nD τ) arg4 fullShare (step3 x0 x1 zero3)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    unfold step3 zero3
    simp only [View.read_writes_eq_canon _ _ _ (cover3 _ _), View.readCov_eq_canon_ld _ _ _ (cover3 _ _), View.readAt_eq_ld,
      View.ld_unit_zero (S := S64x64) off3, View.ld_unit_zero (S := S5000x64) off3, View.canon_cons_unit_zero (S := S64x64) off3]
  iexists _; isplitr
  swap; · iexact H3
  ipureintro
  sl_unfold_run_names
  unfold step3 zero3
  simp only [View.read_writes_eq_canon _ _ _ (cover3 _ _), View.readCov_eq_canon_ld _ _ _ (cover3 _ _), View.readAt_eq_ld,
    View.ld_unit_zero (S := S64x64) off3, View.ld_unit_zero (S := S5000x64) off3, View.canon_cons_unit_zero (S := S64x64) off3]

theorem Phi3_zero (c : Dev nD) (j : Fin (cfg3.N + 1)) (hj : j.val = 0) : (dat3 V c).Φ j = Pipeline.ΦA spec3 c := by
  dsimp only [dat3]; rw [if_pos hj]

theorem Phi3_pos (c : Dev nD) (j : Fin (cfg3.N + 1)) (hj : j.val ≠ 0) :
    (dat3 V c).Φ j = iprop(rest3 (F := F) c ∗ owns (c : Thread nD τ) (Memref.whole cc3_scratch0) fullShare (acc3 V c j.val) ∗ ∃ r, prngReg c r) := by
  dsimp only [dat3]; rw [if_neg hj]

/-- The class's invariant with the accumulator split off the other scoped buffers, as a memref owned at some contents. -/
theorem PhiA3_eq (c : Dev nD) :
    (Pipeline.ΦA spec3 c : sProp 𝕄)
      = iprop(rest3 (F := F) c ∗ (∃ d, owns (c : Thread nD τ) (Memref.whole cc3_scratch0) fullShare d) ∗ ∃ r, prngReg c r) := by
  unfold Pipeline.ΦA rest3; rw [scopedRest3_eq]; simp only [owns_whole]
  refine BI.equiv_iff.mp ⟨?_, ?_⟩
  · show (_ : sProp 𝕄) ⊢ _
    iintro ⟨⟨H1, H2, H3, H4, H5, H6, H7, H8, H9, H10, H11, H12, H13, H14, H15, H16, H17, HS⟩, Hg⟩
    isplitl [H1 H2 H3 H4 H5 H6 H7 H8 H9 H10 H11 H12 H13 H14 H15 H16 H17]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    isplitl [HS]; · iexact HS
    iexact Hg
  · show (_ : sProp 𝕄) ⊢ _
    iintro ⟨⟨H1, H2, H3, H4, H5, H6, H7, H8, H9, H10, H11, H12, H13, H14, H15, H16, H17⟩, HS, Hg⟩
    isplitr [Hg]
    swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact HS

theorem coord3 : ∀ t : Fin cfg3.N, ((grid3.coords t) 0).val = t.val :=
  (by decide +kernel : ∀ t : Fin grid3.N, ((grid3.coords t) 0).val = t.val)

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    after3_0, after3_1, after3_2, Phi3_pos V c t.succ (by rw [Fin.val_succ]; omega), Fin.val_succ, acc3_succ]
  by_cases hz : t.val = 0
  · rw [Phi3_zero V c t.castSucc (by rw [Fin.coe_castSucc]; exact hz), PhiA3_eq,
      show acc3 V c t.val = zero3 from by rw [hz]; rfl]
    iintro ⟨⟨HR, ⟨%s, HS⟩, Hg⟩, Ho, ⟨%d0, H0⟩, ⟨%d1, H1⟩, ⟨%d2, H2⟩⟩
    iapply (sound_kernel3_first c Set.univ _ ((hcond3 t).mpr hz) _ _ _ _ _ _ _ _ (iblk3 V c 0 t) (iblk3 V c 1 t) _)
    isplitl [H0]; · iexact H0
    isplitl [H1]; · iexact H1
    isplitl [H2]; · iexists _; iexact H2
    isplitl [HS]; · iexists _; iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexact H2
  · rw [Phi3_pos V c t.castSucc (by rw [Fin.coe_castSucc]; exact hz), Fin.coe_castSucc]
    iintro ⟨⟨HR, HS, Hg⟩, Ho, ⟨%d0, H0⟩, ⟨%d1, H1⟩, ⟨%d2, H2⟩⟩
    iapply (sound_kernel3_later c Set.univ _ (fun h => hz ((hcond3 t).mp h)) _ _ _ _ _ _ _ _ (iblk3 V c 0 t) (iblk3 V c 1 t) (acc3 V c t.val) _)
    isplitl [H0]; · iexact H0
    isplitl [H1]; · iexact H1
    isplitl [H2]; · iexists _; iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexact H2

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [Phi3_zero V c 0 rfl]

/-- After the last point the invariant gives the class's back: the accumulator's contents are forgotten. -/
theorem hout3 (c : Dev nD) : (dat3 V c).Φ (Fin.last cfg3.N) ⊢ Pipeline.ΦA spec3 c := by
  rw [Phi3_pos V c _ (by rw [Fin.val_last]; have : cfg3.N = 20 := N_3; omega), PhiA3_eq]
  iintro ⟨HR, HS, Hg⟩
  isplitl [HR]; · iexact HR
  isplitl [HS]; · iexists _; iexact HS
  iexact Hg

end Cert.KernelIdeal.Frames

end
-- ==== Proof.KernelIdealFrame.Run.lean ====
/-
  The whole program at any instance `F`: its host stretches and its four launches run one after the other.
  Between two items every unscoped buffer is held at a named valuation: the launch memory, then each host
  stretch's operations applied, then what each launch's write-backs leave in its windows' arrays. The run ends
  with every unscoped buffer at the last valuation; the arguments are never written, so they end as launched.
-/
import proofs.«424110_j77214922048129_1_alg».proof.Proof.KernelIdealFrame.Region0
import proofs.«424110_j77214922048129_1_alg».proof.Proof.KernelIdealFrame.Region1
import proofs.«424110_j77214922048129_1_alg».proof.Proof.KernelIdealFrame.Region2
import proofs.«424110_j77214922048129_1_alg».proof.Proof.KernelIdealFrame.Region3
import proofs.«424110_j77214922048129_1_alg».proof.Proof.Gen.KernelIdeal.Regions

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations between the items -/

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)
abbrev VE0 : (c : Dev nD) → (b : Ref sig .tc) → Buf (Elt F) ((c : Thread nD τ).loc b) := fun c b => W3 m c b

/-- After launch 0: its windows' arrays at what its write-backs leave, every other buffer as entered. -/
def W4 (c : Dev nD) : Valuation τ sig (Elt F) :=
  Pipeline.withArrays spec0 c (W3 m c) fun w => (dat0 (VE0 m) c).arrAt w cfg0.N
theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev VX0 : (c : Dev nD) → (b : Ref sig .tc) → Buf (Elt F) ((c : Thread nD τ).loc b) := fun c b => W4 m c b
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)

abbrev W5 : Dev nD → Valuation τ sig (Elt F) := fun c => StableHlo.after hostOps1 (W4 m c)
abbrev VE1 : (c : Dev nD) → (b : Ref sig .tc) → Buf (Elt F) ((c : Thread nD τ).loc b) := fun c b => W5 m c b

/-- After launch 1: its windows' arrays at what its write-backs leave, every other buffer as entered. -/
def W6 (c : Dev nD) : Valuation τ sig (Elt F) :=
  Pipeline.withArrays spec1 c (W5 m c) fun w => (dat1 (VE1 m) c).arrAt w cfg1.N
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VE2 : (c : Dev nD) → (b : Ref sig .tc) → Buf (Elt F) ((c : Thread nD τ).loc b) := fun c b => W6 m c b
theorem hF1 (c : Dev nD) (w : Fin cfg1.W) : (dat1 (VE1 m) c).arrAt w cfg1.N = VE2 m c (Pipeline.arrRef spec1 w) :=
  (W6_arr m c w).symm
theorem hrest1 (c : Dev nD) : ∀ b, b ∉ Finset.univ.image (Pipeline.arrRef spec1) → VE2 m c b = VE1 m c b :=
  fun b hb => W6_of_ne m c b fun w e => hb (Finset.mem_image.mpr ⟨w, Finset.mem_univ _, e⟩)

/-- After launch 2: its windows' arrays at what its write-backs leave, every other buffer as entered. -/
def W7 (c : Dev nD) : Valuation τ sig (Elt F) :=
  Pipeline.withArrays spec2 c (W6 m c) fun w => (dat2 (VE2 m) c).arrAt w cfg2.N
theorem W7_arr (c : Dev nD) (w : Fin cfg2.W) :
    W7 m c (Proc.devRef .tc (Pipeline.arrRef spec2 w)) = (dat2 (VE2 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev VX2 : (c : Dev nD) → (b : Ref sig .tc) → Buf (Elt F) ((c : Thread nD τ).loc b) := fun c b => W7 m c b
theorem hF2 (c : Dev nD) (w : Fin cfg2.W) : (dat2 (VE2 m) c).arrAt w cfg2.N = VX2 m c (Pipeline.arrRef spec2 w) :=
  (W7_arr m c w).symm
theorem hrest2 (c : Dev nD) : ∀ b, b ∉ Finset.univ.image (Pipeline.arrRef spec2) → VX2 m c b = VE2 m c b :=
  fun b hb => W7_of_ne m c b fun w e => hb (Finset.mem_image.mpr ⟨w, Finset.mem_univ _, e⟩)

abbrev W8 : Dev nD → Valuation τ sig (Elt F) := fun c => StableHlo.after hostOps3 (W7 m c)
abbrev VE3 : (c : Dev nD) → (b : Ref sig .tc) → Buf (Elt F) ((c : Thread nD τ).loc b) := fun c b => W8 m c b

/-- After launch 3: its windows' arrays at what its write-backs leave, every other buffer as entered. -/
def W9 (c : Dev nD) : Valuation τ sig (Elt F) :=
  Pipeline.withArrays spec3 c (W8 m c) fun w => (dat3 (VE3 m) c).arrAt w cfg3.N
theorem W9_arr (c : Dev nD) (w : Fin cfg3.W) :
    W9 m c (Proc.devRef .tc (Pipeline.arrRef spec3 w)) = (dat3 (VE3 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev VX3 : (c : Dev nD) → (b : Ref sig .tc) → Buf (Elt F) ((c : Thread nD τ).loc b) := fun c b => W9 m c b
theorem hF3 (c : Dev nD) (w : Fin cfg3.W) : (dat3 (VE3 m) c).arrAt w cfg3.N = VX3 m c (Pipeline.arrRef spec3 w) :=
  (W9_arr m c w).symm
theorem hrest3 (c : Dev nD) : ∀ b, b ∉ Finset.univ.image (Pipeline.arrRef spec3) → VX3 m c b = VE3 m c b :=
  fun b hb => W9_of_ne m c b fun w e => hb (Finset.mem_image.mpr ⟨w, Finset.mem_univ _, e⟩)

abbrev W10 : Dev nD → Valuation τ sig (Elt F) := fun c => StableHlo.after hostOps4 (W9 m c)

/-! ## The proof data family and the thread state -/

/-- Every launch's proof data, each at the contents its launch is entered from. -/
def pdats : (p : Fin 4) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
  | ⟨2, _⟩ => fun c => dat2 (VE2 m) c
  | ⟨3, _⟩ => fun c => dat3 (VE3 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The launches as items -/

set_option backward.isDefEq.respectTransparency.types false in
/-- Launch 0 between the valuations before and after it: its windows' arrays are split out of the unscoped
    buffers on entry and put back at their final contents on exit; the generator register rides in the invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 between the valuations before and after it: its windows' arrays are split out of the unscoped
    buffers on entry and put back at their final contents on exit; the generator register rides in the invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VE2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 between the valuations before and after it: its windows' arrays are split out of the unscoped
    buffers on entry and put back at their final contents on exit; the generator register rides in the invariant. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 between the valuations before and after it: its windows' arrays are split out of the unscoped
    buffers on entry and put back at their final contents on exit; the generator register rides in the invariant. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (VE3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 3).pre c (fun _ => fullShare) (adm (F := F) 3).1
          ∗ Pipeline.scopedRest (Pipeline.pin (pcfgs (F := F)) adm 3).spec c) ⊢ (Pipeline.ΦA spec3 c : sProp 𝕄) := by
      unfold Pipeline.ΦA
      iintro ⟨Hp, -, Hr⟩
      isplitl [Hr]; · iexact Hr
      iexact Hp
    exact h1.trans (hin3 (VE3 m) c)
  hout c := by
    rw [Pipeline.ownSems0_none]
    have h1 : (Pipeline.ΦA spec3 c : sProp 𝕄) ⊢ iprop((∃ r, prngReg c r) ∗ BI.emp
          ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (hout3 (VE3 m) c).trans h1
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VE3 m c) (VX3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev items : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)) ]

theorem main_run (c : Dev nD) : main (F := F) c = Pipeline.Seg.run (items m) := (main_chain c).trans (by chain_rfl)

set_option backward.isDefEq.respectTransparency.types false in
/-- Every weakly fair execution of the program from memory `m` with zero counters terminates, nothing faulting,
    with every unscoped buffer of every core at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Frames

end
-- ==== Proof.KernelIdealFrame.Frame.lean ====
/-
  The arguments are never written: no host operation names one as its result, and a launch reads an argument
  through an input window (whose array the write-backs leave alone) or not at all. So each argument's buffer at the
  last valuation walks back, item by item, to its launch contents; the run then gives the frame claim, and the two
  result buffers at the last valuation.
-/
import proofs.«424110_j77214922048129_1_alg».proof.Proof.KernelIdealFrame.Run

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W10_main_arg0 (c : Dev nD) : W10 m c (Proc.devRef .tc main_arg0) = m ((c : Thread nD τ).loc main_arg0) :=
  calc W10 m c (Proc.devRef .tc main_arg0)
    _ = W9 m c (Proc.devRef .tc main_arg0) := StableHlo.after_of_writes_sub hostOps4 _ hostOps4_writes (by decide)
    _ = W8 m c (Proc.devRef .tc main_arg0) := W9_of_ne m c main_arg0 (by decide)
    _ = W7 m c (Proc.devRef .tc main_arg0) := StableHlo.after_of_writes_sub hostOps3 _ hostOps3_writes (by decide)
    _ = W6 m c (Proc.devRef .tc main_arg0) := W7_of_ne m c main_arg0 (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (VE0 m) c).arrAt_in 0 rfl _).trans (A_eq0 (VE0 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W10_main_arg1 (c : Dev nD) : W10 m c (Proc.devRef .tc main_arg1) = m ((c : Thread nD τ).loc main_arg1) :=
  calc W10 m c (Proc.devRef .tc main_arg1)
    _ = W9 m c (Proc.devRef .tc main_arg1) := StableHlo.after_of_writes_sub hostOps4 _ hostOps4_writes (by decide)
    _ = W8 m c (Proc.devRef .tc main_arg1) := W9_of_ne m c main_arg1 (by decide)
    _ = W7 m c (Proc.devRef .tc main_arg1) := StableHlo.after_of_writes_sub hostOps3 _ hostOps3_writes (by decide)
    _ = W6 m c (Proc.devRef .tc main_arg1) := W7_of_ne m c main_arg1 (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W10_main_arg2 (c : Dev nD) : W10 m c (Proc.devRef .tc main_arg2) = m ((c : Thread nD τ).loc main_arg2) :=
  calc W10 m c (Proc.devRef .tc main_arg2)
    _ = W9 m c (Proc.devRef .tc main_arg2) := StableHlo.after_of_writes_sub hostOps4 _ hostOps4_writes (by decide)
    _ = W8 m c (Proc.devRef .tc main_arg2) := W9_of_ne m c main_arg2 (by decide)
    _ = W7 m c (Proc.devRef .tc main_arg2) := StableHlo.after_of_writes_sub hostOps3 _ hostOps3_writes (by decide)
    _ = W6 m c (Proc.devRef .tc main_arg2) := W7_of_ne m c main_arg2 (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W10_main_arg3 (c : Dev nD) : W10 m c (Proc.devRef .tc main_arg3) = m ((c : Thread nD τ).loc main_arg3) :=
  calc W10 m c (Proc.devRef .tc main_arg3)
    _ = W9 m c (Proc.devRef .tc main_arg3) := StableHlo.after_of_writes_sub hostOps4 _ hostOps4_writes (by decide)
    _ = W8 m c (Proc.devRef .tc main_arg3) := W9_of_ne m c main_arg3 (by decide)
    _ = W7 m c (Proc.devRef .tc main_arg3) := StableHlo.after_of_writes_sub hostOps3 _ hostOps3_writes (by decide)
    _ = W6 m c (Proc.devRef .tc main_arg3) := W7_of_ne m c main_arg3 (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := (W4_arr m c 1).trans (((dat0 (VE0 m) c).arrAt_in 1 rfl _).trans (A_eq0 (VE0 m) c 1))
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

theorem W10_main_arg4 (c : Dev nD) : W10 m c (Proc.devRef .tc main_arg4) = m ((c : Thread nD τ).loc main_arg4) :=
  calc W10 m c (Proc.devRef .tc main_arg4)
    _ = W9 m c (Proc.devRef .tc main_arg4) := StableHlo.after_of_writes_sub hostOps4 _ hostOps4_writes (by decide)
    _ = W8 m c (Proc.devRef .tc main_arg4) := W9_of_ne m c main_arg4 (by decide)
    _ = W7 m c (Proc.devRef .tc main_arg4) := StableHlo.after_of_writes_sub hostOps3 _ hostOps3_writes (by decide)
    _ = W6 m c (Proc.devRef .tc main_arg4) := W7_of_ne m c main_arg4 (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

theorem W10_main_arg5 (c : Dev nD) : W10 m c (Proc.devRef .tc main_arg5) = m ((c : Thread nD τ).loc main_arg5) :=
  calc W10 m c (Proc.devRef .tc main_arg5)
    _ = W9 m c (Proc.devRef .tc main_arg5) := StableHlo.after_of_writes_sub hostOps4 _ hostOps4_writes (by decide)
    _ = W8 m c (Proc.devRef .tc main_arg5) := W9_of_ne m c main_arg5 (by decide)
    _ = W7 m c (Proc.devRef .tc main_arg5) := StableHlo.after_of_writes_sub hostOps3 _ hostOps3_writes (by decide)
    _ = W6 m c (Proc.devRef .tc main_arg5) := W7_of_ne m c main_arg5 (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

theorem W10_main_arg6 (c : Dev nD) : W10 m c (Proc.devRef .tc main_arg6) = m ((c : Thread nD τ).loc main_arg6) :=
  calc W10 m c (Proc.devRef .tc main_arg6)
    _ = W9 m c (Proc.devRef .tc main_arg6) := StableHlo.after_of_writes_sub hostOps4 _ hostOps4_writes (by decide)
    _ = W8 m c (Proc.devRef .tc main_arg6) := W9_of_ne m c main_arg6 (by decide)
    _ = W7 m c (Proc.devRef .tc main_arg6) := StableHlo.after_of_writes_sub hostOps3 _ hostOps3_writes (by decide)
    _ = W6 m c (Proc.devRef .tc main_arg6) := W7_of_ne m c main_arg6 (by decide)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

theorem W10_main_arg7 (c : Dev nD) : W10 m c (Proc.devRef .tc main_arg7) = m ((c : Thread nD τ).loc main_arg7) :=
  calc W10 m c (Proc.devRef .tc main_arg7)
    _ = W9 m c (Proc.devRef .tc main_arg7) := StableHlo.after_of_writes_sub hostOps4 _ hostOps4_writes (by decide)
    _ = W8 m c (Proc.devRef .tc main_arg7) := W9_of_ne m c main_arg7 (by decide)
    _ = W7 m c (Proc.devRef .tc main_arg7) := StableHlo.after_of_writes_sub hostOps3 _ hostOps3_writes (by decide)
    _ = W6 m c (Proc.devRef .tc main_arg7) := (W7_arr m c 1).trans (((dat2 (VE2 m) c).arrAt_in 1 rfl _).trans (A_eq2 (VE2 m) c 1))
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl

theorem W10_main_arg8 (c : Dev nD) : W10 m c (Proc.devRef .tc main_arg8) = m ((c : Thread nD τ).loc main_arg8) :=
  calc W10 m c (Proc.devRef .tc main_arg8)
    _ = W9 m c (Proc.devRef .tc main_arg8) := StableHlo.after_of_writes_sub hostOps4 _ hostOps4_writes (by decide)
    _ = W8 m c (Proc.devRef .tc main_arg8) := W9_of_ne m c main_arg8 (by decide)
    _ = W7 m c (Proc.devRef .tc main_arg8) := StableHlo.after_of_writes_sub hostOps3 _ hostOps3_writes (by decide)
    _ = W6 m c (Proc.devRef .tc main_arg8) := W7_of_ne m c main_arg8 (by decide)
    _ = W5 m c (Proc.devRef .tc main_arg8) := W6_of_ne m c main_arg8 (by decide)
    _ = W4 m c (Proc.devRef .tc main_arg8) := StableHlo.after_of_writes_sub hostOps1 _ hostOps1_writes (by decide)
    _ = W3 m c (Proc.devRef .tc main_arg8) := W4_of_ne m c main_arg8 (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl

/-- The frame claim at any `F`: the program runs to the end, nothing faults, the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c),
    (h c _ (mem_uc main_arg8 (by decide))).trans (W10_main_arg8 m c)⟩) (run_all m ρ)

/-- The run with its two results named: each result buffer ends at the last valuation's contents. -/
theorem run_results (ρ : Dev nD → PrngReg) :
    θ_run defs (onTc (τ := τ) (main (F := F))) ⟨m, fun _ => 0, ρ⟩ (fun r => ∀ c : Dev nD,
      r.2.mem ((c.tc : Thread nD τ).loc main_v64) = W10 m c (Proc.devRef .tc main_v64)
      ∧ r.2.mem ((c.tc : Thread nD τ).loc main_v81) = W10 m c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v64 (by decide)), h c _ (mem_uc main_v81 (by decide)),
    (h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c),
    (h c _ (mem_uc main_arg8 (by decide))).trans (W10_main_arg8 m c)⟩) (run_all m ρ)

end Cert.KernelIdeal.Frames

end
-- ==== Proof.Value.Lin.lean ====
/-
  The two linear layers' launches, read as whole-array products.
  Each launch cuts its left operand into twenty blocks of 5000 rows, keeps its right operand whole, and at point `t`
  writes back the product of block `t` with the right operand: at the ideal instance, where rounding to the narrow
  format is the identity and the accumulator starts at zero, entry (5000·t + p, q) of the result is
  ∑ k, x (5000·t + p, k) · w (k, q), which is the reference's `dot_general` at that entry. Row `r` is written by
  point `r / 5000`, so the twenty blocks fill the result array.
-/
import proofs.«424110_j77214922048129_1_alg».proof.Proof.KernelIdealFrame.Region0
import proofs.«424110_j77214922048129_1_alg».proof.Proof.KernelIdealFrame.Region2
import proofs.«424110_j77214922048129_1_alg».proof.Proof.ReferenceRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Values

open Cert.KernelIdeal Cert.KernelIdeal.Gen Cert.KernelIdeal.Frames
open Idealize.ShloMosaic Idealize.ShloMosaic.TcCoe Idealize.SL.Sem
open Idealize.ShloMosaic.Pipeline (Dat)

theorem lin_hz : (![0, 0] : Fin 2 → Nat) = fun _ => 0 := funext fun a => by fin_cases a <;> rfl

/-! ## The first layer: [100000, 64] · [64, 128] -/

theorem lhs_k0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_k0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_k0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_k0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Row `j 0`, column `k` of a row block. -/
abbrev lblk0 (j : S5000x128.Idx) (k : Fin 64) : S5000x64.Idx := fun a => match a with
  | ⟨0, _⟩ => ⟨(j 0).val, (j 0).isLt⟩
  | ⟨1, _⟩ => ⟨k.val, k.isLt⟩
/-- Row `k`, column `j 1` of the weight matrix. -/
abbrev rblk0 (j : S5000x128.Idx) (k : Fin 64) : S64x128.Idx := fun a => match a with
  | ⟨0, _⟩ => ⟨k.val, k.isLt⟩
  | ⟨1, _⟩ => ⟨(j 1).val, (j 1).isLt⟩

/-- The body's product at an entry: the row of the left block against the column of the right one. -/
theorem k0_pay1_apply (xb : Vec Ideal S5000x64 .f32) (wb : Vec Ideal S64x128 .f32) (j : S5000x128.Idx) :
    k0_pay1 (F := Ideal) xb wb j = ∑ k : Fin 64, xb (lblk0 j k) * wb (rblk0 j k) := by
  unfold k0_pay1
  show FloatOps.matmul (F := Ideal) (φ₁ := .bf16) (φ₂ := .bf16) dot_S5000x64_S64x128_S5000x128_1_0_0_1_n_n none xb wb (constant (F := Ideal) S5000x128 .f32 0x00000000#32) j = _
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx j ((ValueIdx.contrEquiv1 dot_S5000x64_S64x128_S5000x128_1_0_0_1_n_n 64 rfl rfl).symm k) = lblk0 j k := funext fun a => Fin.ext (by
    match a with
    | ⟨0, _⟩ => exact lhs_k0_0 _ _
    | ⟨1, _⟩ => exact (lhs_k0_1 _ _).trans hk)
  have er : dot_S5000x64_S64x128_S5000x128_1_0_0_1_n_n.rhsIdx j ((ValueIdx.contrEquiv1 dot_S5000x64_S64x128_S5000x128_1_0_0_1_n_n 64 rfl rfl).symm k) = rblk0 j k := funext fun a => Fin.ext (by
    match a with
    | ⟨0, _⟩ => exact (rhs_k0_0 _ _).trans hk
    | ⟨1, _⟩ => exact rhs_k0_1 _ _)
  rw [el, er]

/-- The whole-array product the launch computes, as the reference writes it. -/
abbrev lin1G (x : (⟨Cert.ReferenceIdeal.S100000x64, .f32⟩ : BufTy).Contents (Elt Ideal)) (w : (⟨Cert.ReferenceIdeal.S64x128, .f32⟩ : BufTy).Contents (Elt Ideal)) :
    (⟨Cert.ReferenceIdeal.S100000x128, .f32⟩ : BufTy).Contents (Elt Ideal) :=
  Host.dotGeneral (F := Ideal) (φ₁ := .f32) (φ₂ := .f32) Cert.ReferenceIdeal.dot_S100000x64_S64x128_S100000x128_1_0_0_1_n_n none x w

/-- The whole-array product at an entry: row `i 0` of the left array against column `i 1` of the right one. -/
theorem lin1G_apply (x : (⟨Cert.ReferenceIdeal.S100000x64, .f32⟩ : BufTy).Contents (Elt Ideal)) (w : (⟨Cert.ReferenceIdeal.S64x128, .f32⟩ : BufTy).Contents (Elt Ideal)) (i : Cert.ReferenceIdeal.S100000x128.Idx) :
    lin1G x w i = ∑ k : Fin 64, x (Cert.ReferenceIdeal.Read.lidx_main_v7 i k) * w (Cert.ReferenceIdeal.Read.ridx_main_v7 i k) := by
  unfold lin1G
  simp only [Host.dotGeneral]
  rw [Ideal.dotGeneral_apply, ← Equiv.sum_comp (ValueIdx.contrEquiv1 Cert.ReferenceIdeal.dot_S100000x64_S64x128_S100000x128_1_0_0_1_n_n 64 rfl rfl).symm]
  refine Finset.sum_congr rfl fun k _ => ?_
  have hk := ValueIdx.contrEquiv1_symm_val Cert.ReferenceIdeal.dot_S100000x64_S64x128_S100000x128_1_0_0_1_n_n 64 rfl rfl k
  have el : Cert.ReferenceIdeal.dot_S100000x64_S64x128_S100000x128_1_0_0_1_n_n.lhsIdx i ((ValueIdx.contrEquiv1 Cert.ReferenceIdeal.dot_S100000x64_S64x128_S100000x128_1_0_0_1_n_n 64 rfl rfl).symm k) = Cert.ReferenceIdeal.Read.lidx_main_v7 i k := funext fun a => Fin.ext (by
    match a with
    | ⟨0, _⟩ => exact Cert.ReferenceIdeal.Read.lhs_main_v7_0 _ _
    | ⟨1, _⟩ => exact (Cert.ReferenceIdeal.Read.lhs_main_v7_1 _ _).trans hk)
  have er : Cert.ReferenceIdeal.dot_S100000x64_S64x128_S100000x128_1_0_0_1_n_n.rhsIdx i ((ValueIdx.contrEquiv1 Cert.ReferenceIdeal.dot_S100000x64_S64x128_S100000x128_1_0_0_1_n_n 64 rfl rfl).symm k) = Cert.ReferenceIdeal.Read.ridx_main_v7 i k := funext fun a => Fin.ext (by
    match a with
    | ⟨0, _⟩ => exact (Cert.ReferenceIdeal.Read.rhs_main_v7_0 _ _).trans hk
    | ⟨1, _⟩ => exact Cert.ReferenceIdeal.Read.rhs_main_v7_1 _ _)
  rw [el, er]

/-- One entry: a block's product is the arrays' product where the block's rows are the array's rows read and
    its right operand is the whole right array. -/
theorem lin1_point (x : (⟨Cert.ReferenceIdeal.S100000x64, .f32⟩ : BufTy).Contents (Elt Ideal)) (w : (⟨Cert.ReferenceIdeal.S64x128, .f32⟩ : BufTy).Contents (Elt Ideal))
    (xb : Vec Ideal S5000x64 .f32) (wb : Vec Ideal S64x128 .f32) (j : S5000x128.Idx) (i : Cert.ReferenceIdeal.S100000x128.Idx)
    (hx : ∀ k : Fin 64, xb (lblk0 j k) = x (Cert.ReferenceIdeal.Read.lidx_main_v7 i k))
    (hw : ∀ k : Fin 64, wb (rblk0 j k) = w (Cert.ReferenceIdeal.Read.ridx_main_v7 i k)) :
    k0_pay1 (F := Ideal) xb wb j = lin1G x w i := by
  rw [k0_pay1_apply, lin1G_apply]
  exact Finset.sum_congr rfl fun k _ => by rw [hx k, hw k]

/-- The printed index maps over the twenty points: the row blocks of the left operand and of the result move
    together, the right operand's block stays. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every row block of the result is some point's. -/
theorem idx_onto0 : ∀ (q0 : Fin 20), ∃ t : Fin cfg0.N, win0_2.index t = ![q0.val, 0] :=
  (by decide +kernel : ∀ (q0 : Fin 20), ∃ t : Fin grid0.N, win0_2.index t = ![q0.val, 0])

variable (V : (c : Dev nD) → (b : Ref sig .tc) → Buf (Elt Ideal) ((c : Thread nD τ).loc b))

/-- What point `t` writes back is block `t` of the whole-array product. -/
theorem lin1_flushed_eq (c : Dev nD) (t : Fin cfg0.N) :
    (dat0 (F := Ideal) V c).flushed 2 t = ((cfg0.win 2).blk t).view.read (Elt Ideal) (lin1G (V c main_arg0) (V c main_arg3)) := by
  show (cfg0.win 2).cut (grid0.coords t) ((dat0 (F := Ideal) V c).after 2 t) = _
  rw [after0_2]
  unfold out0_2
  rw [View.canon_unit_zero lin_hz]
  simp only [View.ld_unit_zero (S := S5000x64) lin_hz, View.ld_unit_zero (S := S64x128) lin_hz]
  obtain ⟨e0, e1, e2, e3, e4, e5⟩ := idx_facts0 t
  funext j
  show k0_pay1 (F := Ideal) (iblk0 V c 0 t) (iblk0 V c 1 t) j = lin1G (V c main_arg0) (V c main_arg3) (((cfg0.win 2).blk t).view.emb j)
  refine lin1_point (V c main_arg0) (V c main_arg3) (iblk0 V c 0 t) (iblk0 V c 1 t) j (((cfg0.win 2).blk t).view.emb j) (fun k => ?_) (fun k => ?_)
  · show V c main_arg0 (((cfg0.win 0).blk t).view.emb (lblk0 j k)) = V c main_arg0 (Cert.ReferenceIdeal.Read.lidx_main_v7 (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  · show V c main_arg3 (((cfg0.win 1).blk t).view.emb (rblk0 j k)) = V c main_arg3 (Cert.ReferenceIdeal.Read.ridx_main_v7 (((cfg0.win 2).blk t).view.emb j) k)
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega

/-- An entry of the result array is in point `t`'s block iff each coordinate is in the block's range. -/
theorem lin1_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the result is written by point `r / 5000`. -/
theorem lin1_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [lin1_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE FIRST LAYER'S ARRAY after its launch is the reference's first product of the arrays the launch was entered from. -/
theorem lin1_value (c : Dev nD) :
    (dat0 (F := Ideal) V c).arrAt 2 cfg0.N = Cert.ReferenceIdeal.Read.val_main_v7 (F := Ideal) (V c main_arg0) (V c main_arg3) :=
  (dat0 (F := Ideal) V c).arrAt_eq_of_cover 2 (lin1G (V c main_arg0) (V c main_arg3)) (fun t _ => lin1_flushed_eq V c t) lin1_cover

/-! ## The second layer: [100000, 128] · [128, 64] -/

theorem lhs_k2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_k2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_k2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_k2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `j 0`, column `k` of a row block. -/
abbrev lblk2 (j : S5000x64.Idx) (k : Fin 128) : S5000x128.Idx := fun a => match a with
  | ⟨0, _⟩ => ⟨(j 0).val, (j 0).isLt⟩
  | ⟨1, _⟩ => ⟨k.val, k.isLt⟩
/-- Row `k`, column `j 1` of the weight matrix. -/
abbrev rblk2 (j : S5000x64.Idx) (k : Fin 128) : S128x64.Idx := fun a => match a with
  | ⟨0, _⟩ => ⟨k.val, k.isLt⟩
  | ⟨1, _⟩ => ⟨(j 1).val, (j 1).isLt⟩

/-- The body's product at an entry: the row of the left block against the column of the right one. -/
theorem k2_pay1_apply (xb : Vec Ideal S5000x128 .f32) (wb : Vec Ideal S128x64 .f32) (j : S5000x64.Idx) :
    k2_pay1 (F := Ideal) xb wb j = ∑ k : Fin 128, xb (lblk2 j k) * wb (rblk2 j k) := by
  unfold k2_pay1
  rw [shapeCast_self]
  show FloatOps.matmul (F := Ideal) (φ₁ := .bf16) (φ₂ := .bf16) dot_S5000x128_S128x64_S5000x64_1_0_0_1_n_n none xb wb (constant (F := Ideal) S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lblk2 j k := funext fun a => Fin.ext (by
    match a with
    | ⟨0, _⟩ => exact lhs_k2_0 _ _
    | ⟨1, _⟩ => exact (lhs_k2_1 _ _).trans hk)
  have er : dot_S5000x128_S128x64_S5000x64_1_0_0_1_n_n.rhsIdx j ((ValueIdx.contrEquiv1 dot_S5000x128_S128x64_S5000x64_1_0_0_1_n_n 128 rfl rfl).symm k) = rblk2 j k := funext fun a => Fin.ext (by
    match a with
    | ⟨0, _⟩ => exact (rhs_k2_0 _ _).trans hk
    | ⟨1, _⟩ => exact rhs_k2_1 _ _)
  rw [el, er]

/-- The whole-array product the launch computes, as the reference writes it. -/
abbrev lin2G (x : (⟨Cert.ReferenceIdeal.S100000x128, .f32⟩ : BufTy).Contents (Elt Ideal)) (w : (⟨Cert.ReferenceIdeal.S128x64, .f32⟩ : BufTy).Contents (Elt Ideal)) :
    (⟨Cert.ReferenceIdeal.S100000x64, .f32⟩ : BufTy).Contents (Elt Ideal) :=
  Host.dotGeneral (F := Ideal) (φ₁ := .f32) (φ₂ := .f32) Cert.ReferenceIdeal.dot_S100000x128_S128x64_S100000x64_1_0_0_1_n_n none x w

/-- The whole-array product at an entry: row `i 0` of the left array against column `i 1` of the right one. -/
theorem lin2G_apply (x : (⟨Cert.ReferenceIdeal.S100000x128, .f32⟩ : BufTy).Contents (Elt Ideal)) (w : (⟨Cert.ReferenceIdeal.S128x64, .f32⟩ : BufTy).Contents (Elt Ideal)) (i : Cert.ReferenceIdeal.S100000x64.Idx) :
    lin2G x w i = ∑ k : Fin 128, x (Cert.ReferenceIdeal.Read.lidx_main_v72 i k) * w (Cert.ReferenceIdeal.Read.ridx_main_v72 i k) := by
  unfold lin2G
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.ReferenceIdeal.Read.lidx_main_v72 i k := funext fun a => Fin.ext (by
    match a with
    | ⟨0, _⟩ => exact Cert.ReferenceIdeal.Read.lhs_main_v72_0 _ _
    | ⟨1, _⟩ => exact (Cert.ReferenceIdeal.Read.lhs_main_v72_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.ReferenceIdeal.Read.ridx_main_v72 i k := funext fun a => Fin.ext (by
    match a with
    | ⟨0, _⟩ => exact (Cert.ReferenceIdeal.Read.rhs_main_v72_0 _ _).trans hk
    | ⟨1, _⟩ => exact Cert.ReferenceIdeal.Read.rhs_main_v72_1 _ _)
  rw [el, er]

/-- One entry: a block's product is the arrays' product where the block's rows are the array's rows read and
    its right operand is the whole right array. -/
theorem lin2_point (x : (⟨Cert.ReferenceIdeal.S100000x128, .f32⟩ : BufTy).Contents (Elt Ideal)) (w : (⟨Cert.ReferenceIdeal.S128x64, .f32⟩ : BufTy).Contents (Elt Ideal))
    (xb : Vec Ideal S5000x128 .f32) (wb : Vec Ideal S128x64 .f32) (j : S5000x64.Idx) (i : Cert.ReferenceIdeal.S100000x64.Idx)
    (hx : ∀ k : Fin 128, xb (lblk2 j k) = x (Cert.ReferenceIdeal.Read.lidx_main_v72 i k))
    (hw : ∀ k : Fin 128, wb (rblk2 j k) = w (Cert.ReferenceIdeal.Read.ridx_main_v72 i k)) :
    k2_pay1 (F := Ideal) xb wb j = lin2G x w i := by
  rw [k2_pay1_apply, lin2G_apply]
  exact Finset.sum_congr rfl fun k _ => by rw [hx k, hw k]

/-- The printed index maps over the twenty points: the row blocks of the left operand and of the result move
    together, the right operand's block stays. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 19
    ∧ win2_2.index t (1 : Fin 2) = 0 :=
  (by decide +kernel : ∀ t : Fin grid2.N, _)

/-- Every row block of the result is some point's. -/
theorem idx_onto2 : ∀ (q0 : Fin 20), ∃ t : Fin cfg2.N, win2_2.index t = ![q0.val, 0] :=
  (by decide +kernel : ∀ (q0 : Fin 20), ∃ t : Fin grid2.N, win2_2.index t = ![q0.val, 0])

/-- What point `t` writes back is block `t` of the whole-array product. -/
theorem lin2_flushed_eq (c : Dev nD) (t : Fin cfg2.N) :
    (dat2 (F := Ideal) V c).flushed 2 t = ((cfg2.win 2).blk t).view.read (Elt Ideal) (lin2G (V c main_v47) (V c main_arg7)) := by
  show (cfg2.win 2).cut (grid2.coords t) ((dat2 (F := Ideal) V c).after 2 t) = _
  rw [after2_2]
  unfold out2_2
  rw [View.canon_unit_zero lin_hz]
  simp only [View.ld_unit_zero (S := S5000x128) lin_hz, View.ld_unit_zero (S := S128x64) lin_hz]
  obtain ⟨e0, e1, e2, e3, e4, e5⟩ := idx_facts2 t
  funext j
  show k2_pay1 (F := Ideal) (iblk2 V c 0 t) (iblk2 V c 1 t) j = lin2G (V c main_v47) (V c main_arg7) (((cfg2.win 2).blk t).view.emb j)
  refine lin2_point (V c main_v47) (V c main_arg7) (iblk2 V c 0 t) (iblk2 V c 1 t) j (((cfg2.win 2).blk t).view.emb j) (fun k => ?_) (fun k => ?_)
  · show V c main_v47 (((cfg2.win 0).blk t).view.emb (lblk2 j k)) = V c main_v47 (Cert.ReferenceIdeal.Read.lidx_main_v72 (((cfg2.win 2).blk t).view.emb j) k)
    refine congrArg (V c main_v47) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg7 (((cfg2.win 1).blk t).view.emb (rblk2 j k)) = V c main_arg7 (Cert.ReferenceIdeal.Read.ridx_main_v72 (((cfg2.win 2).blk t).view.emb j) k)
    refine congrArg (V c main_arg7) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An entry of the result array is in point `t`'s block iff each coordinate is in the block's range. -/
theorem lin2_mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Row `r` of the result is written by point `r / 5000`. -/
theorem lin2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [lin2_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE SECOND LAYER'S ARRAY after its launch is the reference's second product of the arrays the launch was entered from. -/
theorem lin2_value (c : Dev nD) :
    (dat2 (F := Ideal) V c).arrAt 2 cfg2.N = Host.dotGeneral (F := Ideal) (φ₁ := .f32) (φ₂ := .f32) Cert.ReferenceIdeal.dot_S100000x128_S128x64_S100000x64_1_0_0_1_n_n none (V c main_v47) (V c main_arg7) :=
  (dat2 (F := Ideal) V c).arrAt_eq_of_cover 2 (lin2G (V c main_v47) (V c main_arg7)) (fun t _ => lin2_flushed_eq V c t) lin2_cover

end Cert.KernelIdeal.Values

end
-- ==== Proof.Value.Norm.lean ====
/-
  The bias / layer-normalisation / positive-part launch, read as one function of whole arrays.
  For a row r of 128 entries let mean r = (∑ k, r k) / 128 and var r = (∑ k, (r k − mean r)²) / 128. The launch cuts the
  [100000, 128] array a into twenty blocks of 5000 rows; at point t, for every row p of block t and column q, it writes
    max (((a(5000·t + p, q) + b q − mean r) · rsqrt (var r + ε)) · s q + h q) 0,   r k = a(5000·t + p, k) + b k,
  where b, s, h are the three single rows. On the extended reals every operation is exact and a sum over a row does
  not depend on the order, so this is the same function of a, b, s, h that the reference computes stage by stage
  (its sums start from the zero word: 0 + x = x). Row r of the result is written by point r / 5000, so the twenty
  blocks fill the result array.
-/
import proofs.«424110_j77214922048129_1_alg».proof.Proof.KernelIdealFrame.Region1
import proofs.«424110_j77214922048129_1_alg».proof.Proof.ReferenceRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Values

open Cert.KernelIdeal Cert.KernelIdeal.Gen Cert.KernelIdeal.Frames
open Idealize.ShloMosaic.Pipeline (Dat)
open Idealize.SL.Sem
open Idealize.ShloMosaic Idealize.ShloMosaic.TcCoe Idealize.ShloMosaic.ValueIdx
open scoped BigOperators

/-! ## The specification: bias, layer normalisation over each row of 128, scale and shift, then the positive part -/

/-- A row's mean: its sum divided by 128. -/
def rowMean (r : Fin 128 → EReal) : EReal :=
  Ideal.div (∑ k : Fin 128, r k) (Ideal.ofBits .f32 0x43000000#32)

/-- A row's variance: the mean of the squared deviations from the row's mean. -/
def rowVar (r : Fin 128 → EReal) : EReal :=
  Ideal.div (∑ k : Fin 128, (r k - rowMean r) * (r k - rowMean r)) (Ideal.ofBits .f32 0x43000000#32)

/-- Entry `q` of the row `r` normalised, scaled by `s`, shifted by `h`, and cut off below at zero. -/
def lnRow (r s h : Fin 128 → EReal) (q : Fin 128) : EReal :=
  max (((r q - rowMean r) * Ideal.rsqrt (rowVar r + Ideal.ofBits .f32 0x3727C5AC#32)) * s q + h q)
    (Ideal.ofBits .f32 0x00000000#32)

/-- The whole array: row `i 0` of `a` with the bias `b` added, normalised with scale `s` and shift `h`. -/
def lnrelu (a : S100000x128.Idx → EReal) (b s h : S128.Idx → EReal) : S100000x128.Idx → EReal := fun i =>
  lnRow (fun k => a (ix2 (n0 := 100000) (n1 := 128) (i 0) k) + b (ix1 k)) (fun k => s (ix1 k)) (fun k => h (ix1 k)) (i 1)

theorem lnrelu_ix2 (a : S100000x128.Idx → EReal) (b s h : S128.Idx → EReal) (p : Fin 100000) (q : Fin 128) :
    lnrelu a b s h (ix2 p q) = lnRow (fun k => a (ix2 p k) + b (ix1 k)) (fun k => s (ix1 k)) (fun k => h (ix1 k)) q := rfl

/-! ## Two layout operations of a column, read at an index -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over axis 1 of an `[a, b]` array, read at row `p`, is the sum of the row's entries. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext c
  apply Fin.ext
  match c with
  | ⟨0, _⟩ => rfl
  | ⟨1, _⟩ => rfl

/-! ## The body's arithmetic, entry by entry -/

/-- The block with the bias row added to every row. -/
def biased (x0 : Vec Ideal S5000x128 .f32) (x1 : Vec Ideal S1x128 .f32) : FVec Ideal S5000x128 .f32 :=
  addf (shapeCast S5000x128 x0 shapeCasts_S5000x128_S5000x128)
    (broadcastTo S5000x128 (shapeCast S1x128 x1 shapeCasts_S1x128_S1x128) broadcasts_S1x128_S5000x128)

/-- Each row's sum divided by 128, kept as a column. -/
def colMean (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits .f32 0x43000000#32))

/-- Each entry less its row's mean. -/
def centred (v : FVec Ideal S5000x128 .f32) : FVec Ideal S5000x128 .f32 :=
  subf v (broadcastTo S5000x128 (colMean v) broadcasts_S5000x1_S5000x128)

/-- The body's result is these pieces put together. -/
theorem norm_pay_eq (x0 : Vec Ideal S5000x128 .f32) (x1 x2 x3 : Vec Ideal S1x128 .f32) :
    k1_pay1 (F := Ideal) x0 x1 x2 x3 =
      maximumf
        (addf
          (mulf
            (mulf (centred (biased x0 x1))
              (broadcastTo S5000x128
                (rsqrt (addf (colMean (mulf (centred (biased x0 x1)) (centred (biased x0 x1))))
                  (broadcast S5000x1 (Scalar.ofBits .f32 0x3727C5AC#32))))
                broadcasts_S5000x1_S5000x128))
            (broadcastTo S5000x128 (shapeCast S1x128 x2 shapeCasts_S1x128_S1x128) broadcasts_S1x128_S5000x128))
          (broadcastTo S5000x128 (shapeCast S1x128 x3 shapeCasts_S1x128_S1x128) broadcasts_S1x128_S5000x128))
        (broadcast S5000x128 (Scalar.ofBits .f32 0x00000000#32)) := rfl

theorem biased_apply (x0 : Vec Ideal S5000x128 .f32) (x1 : Vec Ideal S1x128 .f32) (p : Fin 5000) (k : Fin 128) :
    biased x0 x1 (ix2 p k) = x0 (ix2 p k) + x1 (ix2 (0 : Fin 1) k) := by
  unfold biased
  rw [addf_apply, shapeCast_self, shapeCast_self, broadcastTo_1b_ab_apply]

theorem colMean_apply (v : FVec Ideal S5000x128 .f32) (p : Fin 5000) (u : Fin 1) :
    colMean v (ix2 p u) = Ideal.div (∑ k : Fin 128, v (ix2 p k)) (Ideal.ofBits .f32 0x43000000#32) := by
  unfold colMean
  rw [divf_apply, broadcast_apply, shapeCast_a_a1_apply]
  exact congrArg (fun z => Ideal.div z (Ideal.ofBits .f32 0x43000000#32)) (rowSum_apply v _ _ _ p)

theorem centred_apply (v : FVec Ideal S5000x128 .f32) (p : Fin 5000) (k : Fin 128) :
    centred v (ix2 p k) = v (ix2 p k) - Ideal.div (∑ k : Fin 128, v (ix2 p k)) (Ideal.ofBits .f32 0x43000000#32) := by
  unfold centred
  rw [subf_apply, broadcastTo_a1_ab_apply, colMean_apply]

/-- Entry `(p, q)` of the body's result: row `p` of the block with the bias added, normalised, scaled and shifted, cut off at zero. -/
theorem norm_pay_apply (x0 : Vec Ideal S5000x128 .f32) (x1 x2 x3 : Vec Ideal S1x128 .f32) (p : Fin 5000) (q : Fin 128) :
    k1_pay1 (F := Ideal) x0 x1 x2 x3 (ix2 p q)
      = lnRow (fun k => x0 (ix2 p k) + x1 (ix2 (0 : Fin 1) k)) (fun k => x2 (ix2 (0 : Fin 1) k)) (fun k => x3 (ix2 (0 : Fin 1) k)) q := by
  rw [norm_pay_eq, maximumf_apply, addf_apply, mulf_apply, mulf_apply, broadcast_apply, broadcastTo_1b_ab_apply, broadcastTo_1b_ab_apply,
    shapeCast_self, shapeCast_self, broadcastTo_a1_ab_apply, centred_apply]
  show max (((_ - _) * Ideal.rsqrt (colMean _ (ix2 p (0 : Fin 1)) + _)) * _ + _) _ = _
  rw [colMean_apply]
  simp only [mulf_apply, centred_apply, biased_apply]
  rfl

/-! ## From the blocks to the array -/

/-- The one row of a `[1, 128]` array, as a vector of 128. -/
abbrev rowOf (v : S1x128.Idx → EReal) : S128.Idx → EReal := fun k => v (ix2 (n0 := 1) (n1 := 128) 0 (k 0))

/-- The one row of a vector of 128 laid out as a `[1, 128]` array is the vector. -/
theorem rowOf_reshape (x : S128.Idx → EReal) (h : S128.ShapeCasts S1x128) : rowOf (shapeCast S1x128 x h) = x := by
  funext k
  obtain ⟨q, rfl⟩ : ∃ q : Fin 128, k = ix1 q := ⟨k 0, eq_ix1 k⟩
  exact shapeCast_a_1a_apply x h 0 q

/-- One entry: the body's result on four blocks whose entries are the arrays' entries — row `j 0` of the first block is
    row `i 0` of `a`, the three single rows are `b`, `s`, `h`, and the columns agree — is the specification at `i`. -/
theorem norm_point (a : S100000x128.Idx → EReal) (b s h : S128.Idx → EReal)
    (xb : Vec Ideal S5000x128 .f32) (bb sb hb : Vec Ideal S1x128 .f32) (j : S5000x128.Idx) (i : S100000x128.Idx)
    (hx : ∀ k : Fin 128, xb (ix2 (n0 := 5000) (n1 := 128) (j 0) k) = a (ix2 (n0 := 100000) (n1 := 128) (i 0) k))
    (hq : (i 1).val = (j 1).val)
    (hbb : ∀ k : Fin 128, bb (ix2 (0 : Fin 1) k) = b (ix1 k))
    (hsb : ∀ k : Fin 128, sb (ix2 (0 : Fin 1) k) = s (ix1 k))
    (hhb : ∀ k : Fin 128, hb (ix2 (0 : Fin 1) k) = h (ix1 k)) :
    k1_pay1 (F := Ideal) xb bb sb hb j = lnrelu a b s h i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hq
  rw [norm_pay_apply, lnrelu_ix2]
  have hx' : ∀ k : Fin 128, xb (ix2 p k) = a (ix2 r k) := hx
  simp only [hx', hbb, hsb, hhb]

/-- The printed index maps over the twenty points: the row blocks of the input and of the result move together, the
    three single rows stay. -/
theorem norm_idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 19 ∧ win1_4.index t (1 : Fin 2) = 0 :=
  (by decide +kernel : ∀ t : Fin grid1.N, _)

/-- Every row block of the result is some point's. -/
theorem norm_idx_onto : ∀ (q0 : Fin 20), ∃ t : Fin cfg1.N, win1_4.index t = ![q0.val, 0] :=
  (by decide +kernel : ∀ (q0 : Fin 20), ∃ t : Fin grid1.N, win1_4.index t = ![q0.val, 0])

theorem norm_hz : (![0, 0] : Fin 2 → Nat) = fun _ => 0 := funext fun a => by fin_cases a <;> rfl

variable (V : (c : Dev nD) → (b : Ref sig .tc) → Buf (Elt Ideal) ((c : Thread nD τ).loc b))

/-- What point `t` writes back is block `t` of the specification of the arrays the launch was entered from. -/
theorem norm_flushed_eq (c : Dev nD) (t : Fin cfg1.N) :
    (dat1 (F := Ideal) V c).flushed 4 t = ((cfg1.win 4).blk t).view.read (Elt Ideal)
      (lnrelu (V c main_v43) (rowOf (V c main_v44)) (rowOf (V c main_v45)) (rowOf (V c main_v46))) := by
  show (cfg1.win 4).cut (grid1.coords t) ((dat1 (F := Ideal) V c).after 4 t) = _
  rw [after1_4]
  unfold out1_4
  rw [View.canon_unit_zero norm_hz]
  simp only [View.ld_unit_zero (S := S5000x128) norm_hz, View.ld_unit_zero (S := S1x128) norm_hz]
  obtain ⟨e0, e1, e2, e3, e4, e5, e6, e7, e8, e9⟩ := norm_idx_facts t
  funext j
  show k1_pay1 (F := Ideal) (iblk1 V c 0 t) (iblk1 V c 1 t) (iblk1 V c 2 t) (iblk1 V c 3 t) j
    = lnrelu (V c main_v43) (rowOf (V c main_v44)) (rowOf (V c main_v45)) (rowOf (V c main_v46)) (((cfg1.win 4).blk t).view.emb j)
  refine norm_point (V c main_v43) (rowOf (V c main_v44)) (rowOf (V c main_v45)) (rowOf (V c main_v46))
    (iblk1 V c 0 t) (iblk1 V c 1 t) (iblk1 V c 2 t) (iblk1 V c 3 t) j (((cfg1.win 4).blk t).view.emb j)
    (fun k => ?_) ?_ (fun k => ?_) (fun k => ?_) (fun k => ?_)
  · show V c main_v43 (((cfg1.win 0).blk t).view.emb (ix2 (n0 := 5000) (n1 := 128) (j 0) k))
      = V c main_v43 (ix2 (n0 := 100000) (n1 := 128) ((((cfg1.win 4).blk t).view.emb j) 0) k)
    refine congrArg (V c main_v43) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show win1_4.index t (1 : Fin 2) * 128 + 1 * (j 1).val = (j 1).val; omega
  · show V c main_v44 (((cfg1.win 1).blk t).view.emb (ix2 (0 : Fin 1) k)) = V c main_v44 (ix2 (0 : Fin 1) k)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_v45 (((cfg1.win 2).blk t).view.emb (ix2 (0 : Fin 1) k)) = V c main_v45 (ix2 (0 : Fin 1) k)
    refine congrArg (V c main_v45) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_v46 (((cfg1.win 3).blk t).view.emb (ix2 (0 : Fin 1) k)) = V c main_v46 (ix2 (0 : Fin 1) k)
    refine congrArg (V c main_v46) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega

/-- An entry of the result array is in point `t`'s block iff each coordinate is in the block's range. -/
theorem norm_mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v47).slice (win1_4.rect t)).set ↔ _
  rw [View.set_slice_whole, Rect.mem_set_unit]
  exact Iff.rfl

/-- Row `r` of the result is written by point `r / 5000`. -/
theorem norm_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := norm_idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [norm_mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE NORMALISED ARRAY after its launch: the specification of the four arrays the launch was entered from. -/
theorem norm_value (c : Dev nD) :
    (dat1 (F := Ideal) V c).arrAt 4 cfg1.N
      = lnrelu (V c main_v43) (rowOf (V c main_v44)) (rowOf (V c main_v45)) (rowOf (V c main_v46)) :=
  (dat1 (F := Ideal) V c).arrAt_eq_of_cover 4 _ (fun t _ => norm_flushed_eq V c t) norm_cover

/-! ## The reference's stages are the specification -/

/-- Adding to the zero word changes nothing. -/
theorem zero_word_add (x : EReal) : Ideal.ofBits .f32 0x00000000#32 + x = x := by
  rw [Ideal.ofBits_zero_f32, zero_add]

section Reference

variable (x0 : (⟨Cert.ReferenceIdeal.S100000x64, .f32⟩ : BufTy).Contents (Elt Ideal))
  (x1 : (⟨Cert.ReferenceIdeal.S2x1600000, .i32⟩ : BufTy).Contents (Elt Ideal))
  (x3 : (⟨Cert.ReferenceIdeal.S64x128, .f32⟩ : BufTy).Contents (Elt Ideal))
  (x4 x5 x6 : (⟨Cert.ReferenceIdeal.S128, .f32⟩ : BufTy).Contents (Elt Ideal))

/-- Row `p` of the reference's array with the bias added. -/
abbrev refRow (p : Fin 100000) : Fin 128 → EReal := fun k =>
  Cert.ReferenceIdeal.Read.val_main_v43 (F := Ideal) x0 x1 x3 (ix2 p k) + x4 (ix1 k)

/-- The bias stage at an entry. -/
theorem ref_biased (p : Fin 100000) (k : Fin 128) :
    Cert.ReferenceIdeal.Read.val_main_v46 (F := Ideal) x0 x1 x3 x4 (ix2 p k) = refRow x0 x1 x3 x4 p k := by
  rw [Cert.ReferenceIdeal.Read.val_main_v46_apply, Cert.ReferenceIdeal.Read.val_main_v45_apply, Cert.ReferenceIdeal.Read.val_main_v44_apply]
  exact congrArg (fun z => Cert.ReferenceIdeal.Read.val_main_v43 (F := Ideal) x0 x1 x3 (ix2 p k) + z)
    (congrArg x4 (funext fun a => Fin.ext (by match a with | ⟨0, _⟩ => rfl)))

/-- The mean stage at a row. -/
theorem ref_mean (p : Fin 100000) (u : Fin 1) :
    Cert.ReferenceIdeal.Read.val_main_v50 (F := Ideal) x0 x1 x3 x4 (ix2 p u) = rowMean (refRow x0 x1 x3 x4 p) := by
  rw [Cert.ReferenceIdeal.Read.val_main_v50_apply, Cert.ReferenceIdeal.Read.val_main_v48_apply, Cert.ReferenceIdeal.Read.val_main_v47_apply, Cert.ReferenceIdeal.Read.val_main_v49_apply,
    Cert.ReferenceIdeal.Read.val_main_cst_9_apply, Cert.ReferenceIdeal.Read.val_main_cst_10_apply]
  unfold rowMean
  refine congrArg (fun z => Ideal.div z (Ideal.ofBits .f32 0x43000000#32)) ((zero_word_add _).trans ?_)
  refine Finset.sum_congr rfl fun k _ => ?_
  rw [← ref_biased]
  exact congrArg (Cert.ReferenceIdeal.Read.val_main_v46 (F := Ideal) x0 x1 x3 x4) (funext fun a => Fin.ext (by match a with | ⟨0, _⟩ => rfl | ⟨1, _⟩ => rfl))

/-- The deviation stage (as the variance reads it) at an entry. -/
theorem ref_dev (p : Fin 100000) (k : Fin 128) :
    Cert.ReferenceIdeal.Read.val_main_v52 (F := Ideal) x0 x1 x3 x4 (ix2 p k) = refRow x0 x1 x3 x4 p k - rowMean (refRow x0 x1 x3 x4 p) := by
  rw [Cert.ReferenceIdeal.Read.val_main_v52_apply, Cert.ReferenceIdeal.Read.val_main_v51_apply, ref_biased, ← ref_mean x0 x1 x3 x4 p 0]
  exact congrArg (fun z => refRow x0 x1 x3 x4 p k - z)
    (congrArg (Cert.ReferenceIdeal.Read.val_main_v50 (F := Ideal) x0 x1 x3 x4) (funext fun a => Fin.ext (by match a with | ⟨0, _⟩ => rfl | ⟨1, _⟩ => rfl)))

/-- The deviation stage (as the result reads it) at an entry. -/
theorem ref_dev' (p : Fin 100000) (k : Fin 128) :
    Cert.ReferenceIdeal.Read.val_main_v59 (F := Ideal) x0 x1 x3 x4 (ix2 p k) = refRow x0 x1 x3 x4 p k - rowMean (refRow x0 x1 x3 x4 p) := by
  rw [Cert.ReferenceIdeal.Read.val_main_v59_apply, Cert.ReferenceIdeal.Read.val_main_v58_apply, ref_biased, ← ref_mean x0 x1 x3 x4 p 0]
  exact congrArg (fun z => refRow x0 x1 x3 x4 p k - z)
    (congrArg (Cert.ReferenceIdeal.Read.val_main_v50 (F := Ideal) x0 x1 x3 x4) (funext fun a => Fin.ext (by match a with | ⟨0, _⟩ => rfl | ⟨1, _⟩ => rfl)))

/-- The variance stage at a row. -/
theorem ref_var (p : Fin 100000) (u : Fin 1) :
    Cert.ReferenceIdeal.Read.val_main_v57 (F := Ideal) x0 x1 x3 x4 (ix2 p u) = rowVar (refRow x0 x1 x3 x4 p) := by
  rw [Cert.ReferenceIdeal.Read.val_main_v57_apply, Cert.ReferenceIdeal.Read.val_main_v55_apply, Cert.ReferenceIdeal.Read.val_main_v54_apply, Cert.ReferenceIdeal.Read.val_main_v56_apply,
    Cert.ReferenceIdeal.Read.val_main_cst_11_apply, Cert.ReferenceIdeal.Read.val_main_cst_12_apply]
  unfold rowVar
  refine congrArg (fun z => Ideal.div z (Ideal.ofBits .f32 0x43000000#32)) ((zero_word_add _).trans ?_)
  refine Finset.sum_congr rfl fun k _ => ?_
  rw [← ref_dev, Cert.ReferenceIdeal.Read.val_main_v53_apply]
  have e : Cert.ReferenceIdeal.Read.idx_main_v54 (Cert.ReferenceIdeal.Read.idx_main_v55 (ix2 p u)) k = ix2 p k :=
    funext fun a => Fin.ext (by match a with | ⟨0, _⟩ => rfl | ⟨1, _⟩ => rfl)
  rw [e]
  rfl

/-- THE REFERENCE'S NORMALISED ARRAY is the specification of its scattered sums and the three vectors. -/
theorem norm_ref :
    Cert.ReferenceIdeal.Read.val_main_v71 (F := Ideal) x0 x1 x3 x4 x5 x6
      = lnrelu (Cert.ReferenceIdeal.Read.val_main_v43 (F := Ideal) x0 x1 x3) x4 x5 x6 := by
  funext i
  obtain ⟨p, q, rfl⟩ : ∃ (p : Fin 100000) (q : Fin 128), i = ix2 p q := ⟨i 0, i 1, eq_ix2 i⟩
  rw [lnrelu_ix2]
  unfold lnRow
  rw [Cert.ReferenceIdeal.Read.val_main_v71_apply, Cert.ReferenceIdeal.Read.val_main_v70_apply, Cert.ReferenceIdeal.Read.val_main_v67_apply, Cert.ReferenceIdeal.Read.val_main_v64_apply, ref_dev',
    Cert.ReferenceIdeal.Read.val_main_v63_apply, Cert.ReferenceIdeal.Read.val_main_v62_apply, Cert.ReferenceIdeal.Read.val_main_v61_apply, Cert.ReferenceIdeal.Read.val_main_v60_apply, Cert.ReferenceIdeal.Read.val_main_cst_13_apply,
    Cert.ReferenceIdeal.Read.val_main_v66_apply, Cert.ReferenceIdeal.Read.val_main_v65_apply, Cert.ReferenceIdeal.Read.val_main_v69_apply, Cert.ReferenceIdeal.Read.val_main_v68_apply,
    Cert.ReferenceIdeal.Read.val_main_call1_v0_apply, Cert.ReferenceIdeal.Read.val_main_call1_cst_apply]
  have ev : Cert.ReferenceIdeal.Read.val_main_v57 (F := Ideal) x0 x1 x3 x4 (Cert.ReferenceIdeal.Read.idx_main_v63 (ix2 p q)) = rowVar (refRow x0 x1 x3 x4 p) :=
    (congrArg (Cert.ReferenceIdeal.Read.val_main_v57 (F := Ideal) x0 x1 x3 x4) (funext fun a => Fin.ext (by match a with | ⟨0, _⟩ => rfl | ⟨1, _⟩ => rfl))).trans
      (ref_var x0 x1 x3 x4 p 0)
  have e5 : Cert.ReferenceIdeal.Read.idx_main_v65 (Cert.ReferenceIdeal.Read.idx_main_v66 (ix2 p q)) = ix1 q :=
    funext fun a => Fin.ext (by match a with | ⟨0, _⟩ => rfl)
  have e6 : Cert.ReferenceIdeal.Read.idx_main_v68 (Cert.ReferenceIdeal.Read.idx_main_v69 (ix2 p q)) = ix1 q :=
    funext fun a => Fin.ext (by match a with | ⟨0, _⟩ => rfl)
  rw [ev, e5, e6]
  rfl

end Reference

end Cert.KernelIdeal.Values

end
-- ==== Proof.Value.Host.lean ====
/-
  The host stretches of the kernel's program against the reference's stages, at the ideal instance.
  Around the launches both programs apply the same host operations: the edge list with its self loops and the
  symmetric normalisation coefficients, the two aggregations (gather the source rows, scale by the coefficient,
  scatter-add into the target rows), the bias, the per-graph counts and the final division. Each lemma takes an
  arbitrary valuation Wp whose relevant buffers are known to hold reference stages, runs one stretch from it,
  and reads off the buffer the next launch (or the result) uses as the corresponding reference stage. The two
  sides are then the same operations on the same operands, so they agree without opening any gather or scatter.
-/
import proofs.«424110_j77214922048129_1_alg».proof.Proof.Gen.KernelIdeal.Launch
import proofs.«424110_j77214922048129_1_alg».proof.Proof.ReferenceRead
import Idealize.ShloMosaic.Lib.StableHlo.Run
import Idealize.ShloMosaic.Lib.ValueLayout

noncomputable section

namespace Cert.KernelIdeal.Values

open Cert.KernelIdeal Cert.KernelIdeal.Gen
open Idealize.ShloMosaic Idealize.ShloMosaic.TcCoe Idealize.SL.Sem Idealize.ShloMosaic.StableHlo

variable (Wp : Valuation τ sig (Elt Ideal))

/-! ## The edge list and the normalisation coefficients -/

/-- First stretch: sources and targets with the self loops appended, the degree's positivity mask and its
    reciprocal square root, and the zero the mask selects against. -/
theorem host_edges_a (x1 : (⟨Cert.ReferenceIdeal.S2x1600000, .i32⟩ : BufTy).Contents (Elt Ideal)) (h : Wp main_arg1 = x1) :
    StableHlo.after hostOps0 Wp main_v3 = Cert.ReferenceIdeal.Read.val_main_v3 x1
      ∧ StableHlo.after hostOps0 Wp main_v6 = Cert.ReferenceIdeal.Read.val_main_v6 x1
      ∧ StableHlo.after hostOps0 Wp main_v12 = Cert.ReferenceIdeal.Read.val_main_v13 x1
      ∧ StableHlo.after hostOps0 Wp main_v13 = Cert.ReferenceIdeal.Read.val_main_v14 x1
      ∧ StableHlo.after hostOps0 Wp main_cst_2 = Cert.ReferenceIdeal.Read.val_main_cst_2 := by
  refine ⟨?_, ?_, ?_, ?_, ?_⟩
  · show StableHlo.after hostOps0 Wp (Proc.devRef .tc main_v3) = _
    after_results
    rw [h]
    unfold Cert.ReferenceIdeal.Read.val_main_v3 Cert.ReferenceIdeal.Read.val_main_v2 Cert.ReferenceIdeal.Read.val_main_v1 Cert.ReferenceIdeal.Read.val_main_v0
    rfl
  · show StableHlo.after hostOps0 Wp (Proc.devRef .tc main_v6) = _
    after_results
    rw [h]
    unfold Cert.ReferenceIdeal.Read.val_main_v6 Cert.ReferenceIdeal.Read.val_main_v5 Cert.ReferenceIdeal.Read.val_main_v4 Cert.ReferenceIdeal.Read.val_main_v0
    rfl
  · show StableHlo.after hostOps0 Wp (Proc.devRef .tc main_v12) = _
    after_results
    rw [h]
    unfold Cert.ReferenceIdeal.Read.val_main_v13 Cert.ReferenceIdeal.Read.val_main_v11 Cert.ReferenceIdeal.Read.val_main_v12 Cert.ReferenceIdeal.Read.val_main_v9 Cert.ReferenceIdeal.Read.val_main_v10 Cert.ReferenceIdeal.Read.val_main_v8 Cert.ReferenceIdeal.Read.val_main_v6 Cert.ReferenceIdeal.Read.val_main_v5 Cert.ReferenceIdeal.Read.val_main_v4 Cert.ReferenceIdeal.Read.val_main_v0 Cert.ReferenceIdeal.Read.val_main_cst Cert.ReferenceIdeal.Read.val_main_cst_0 Cert.ReferenceIdeal.Read.val_main_cst_1
    rfl
  · show StableHlo.after hostOps0 Wp (Proc.devRef .tc main_v13) = _
    after_results
    rw [h]
    unfold Cert.ReferenceIdeal.Read.val_main_v14 Cert.ReferenceIdeal.Read.val_main_v11 Cert.ReferenceIdeal.Read.val_main_v9 Cert.ReferenceIdeal.Read.val_main_v10 Cert.ReferenceIdeal.Read.val_main_v8 Cert.ReferenceIdeal.Read.val_main_v6 Cert.ReferenceIdeal.Read.val_main_v5 Cert.ReferenceIdeal.Read.val_main_v4 Cert.ReferenceIdeal.Read.val_main_v0 Cert.ReferenceIdeal.Read.val_main_cst Cert.ReferenceIdeal.Read.val_main_cst_0
    rfl
  · show StableHlo.after hostOps0 Wp (Proc.devRef .tc main_cst_2) = _
    after_results
    unfold Cert.ReferenceIdeal.Read.val_main_cst_2
    rfl

/-- Second stretch (the masked reciprocal square root): writes neither index list. -/
theorem host_edges_b (x1 : (⟨Cert.ReferenceIdeal.S2x1600000, .i32⟩ : BufTy).Contents (Elt Ideal)) (h12 : Wp main_v12 = Cert.ReferenceIdeal.Read.val_main_v13 x1) (h13 : Wp main_v13 = Cert.ReferenceIdeal.Read.val_main_v14 x1)
    (hc : Wp main_cst_2 = Cert.ReferenceIdeal.Read.val_main_cst_2) :
    StableHlo.after hostOps0_1 Wp main_v14 = Cert.ReferenceIdeal.Read.val_main_v15 x1
      ∧ StableHlo.after hostOps0_1 Wp main_v3 = Wp main_v3
      ∧ StableHlo.after hostOps0_1 Wp main_v6 = Wp main_v6 := by
  refine ⟨?_, ?_, ?_⟩
  · show StableHlo.after hostOps0_1 Wp (Proc.devRef .tc main_v14) = _
    after_results
    simp only [TRef.ofBuf, TRef.toBuf, TRef.of, cast_eq]
    rw [h12, h13, hc]
    unfold Cert.ReferenceIdeal.Read.val_main_v15 Cert.ReferenceIdeal.Read.val_main_call0_v1 Cert.ReferenceIdeal.Read.val_main_call0_v0
    rfl
  · show StableHlo.after hostOps0_1 Wp (Proc.devRef .tc main_v3) = _
    after_results
  · show StableHlo.after hostOps0_1 Wp (Proc.devRef .tc main_v6) = _
    after_results

/-- Third stretch: the coefficient of an edge is the product of the masked reciprocal square roots at its two
    ends; writes neither index list. -/
theorem host_edges_c (x1 : (⟨Cert.ReferenceIdeal.S2x1600000, .i32⟩ : BufTy).Contents (Elt Ideal)) (h3 : Wp main_v3 = Cert.ReferenceIdeal.Read.val_main_v3 x1) (h6 : Wp main_v6 = Cert.ReferenceIdeal.Read.val_main_v6 x1)
    (h14 : Wp main_v14 = Cert.ReferenceIdeal.Read.val_main_v15 x1) :
    StableHlo.after hostOps0_2 Wp main_v29 = Cert.ReferenceIdeal.Read.val_main_v30 x1
      ∧ StableHlo.after hostOps0_2 Wp main_v3 = Wp main_v3
      ∧ StableHlo.after hostOps0_2 Wp main_v6 = Wp main_v6 := by
  refine ⟨?_, ?_, ?_⟩
  · show StableHlo.after hostOps0_2 Wp (Proc.devRef .tc main_v29) = _
    after_results_simp
    rw [h3, h6, h14]
    unfold Cert.ReferenceIdeal.Read.val_main_v30 Cert.ReferenceIdeal.Read.val_main_v22 Cert.ReferenceIdeal.Read.val_main_v29 Cert.ReferenceIdeal.Read.val_main_v21 Cert.ReferenceIdeal.Read.val_main_v28 Cert.ReferenceIdeal.Read.val_main_v20 Cert.ReferenceIdeal.Read.val_main_v27 Cert.ReferenceIdeal.Read.val_main_v17 Cert.ReferenceIdeal.Read.val_main_v19 Cert.ReferenceIdeal.Read.val_main_v24 Cert.ReferenceIdeal.Read.val_main_v26 Cert.ReferenceIdeal.Read.val_main_v16 Cert.ReferenceIdeal.Read.val_main_v18 Cert.ReferenceIdeal.Read.val_main_v23 Cert.ReferenceIdeal.Read.val_main_v25 Cert.ReferenceIdeal.Read.val_main_c Cert.ReferenceIdeal.Read.val_main_c_3 Cert.ReferenceIdeal.Read.val_main_c_4 Cert.ReferenceIdeal.Read.val_main_c_5
    rfl
  · show StableHlo.after hostOps0_2 Wp (Proc.devRef .tc main_v3) = _
    after_results_simp
  · show StableHlo.after hostOps0_2 Wp (Proc.devRef .tc main_v6) = _
    after_results_simp

/-- The three stretches in order: sources, targets and coefficients are the reference's. -/
theorem host_edges (x1 : (⟨Cert.ReferenceIdeal.S2x1600000, .i32⟩ : BufTy).Contents (Elt Ideal)) (h : Wp main_arg1 = x1) :
    StableHlo.after hostOps0_2 (StableHlo.after hostOps0_1 (StableHlo.after hostOps0 Wp)) main_v3 = Cert.ReferenceIdeal.Read.val_main_v3 x1
      ∧ StableHlo.after hostOps0_2 (StableHlo.after hostOps0_1 (StableHlo.after hostOps0 Wp)) main_v6 = Cert.ReferenceIdeal.Read.val_main_v6 x1
      ∧ StableHlo.after hostOps0_2 (StableHlo.after hostOps0_1 (StableHlo.after hostOps0 Wp)) main_v29 = Cert.ReferenceIdeal.Read.val_main_v30 x1 := by
  obtain ⟨a3, a6, a12, a13, ac⟩ := host_edges_a Wp x1 h
  obtain ⟨b14, b3, b6⟩ := host_edges_b (StableHlo.after hostOps0 Wp) x1 a12 a13 ac
  obtain ⟨c29, c3, c6⟩ := host_edges_c (StableHlo.after hostOps0_1 (StableHlo.after hostOps0 Wp)) x1 (b3.trans a3) (b6.trans a6) b14
  exact ⟨c3.trans (b3.trans a3), c6.trans (b6.trans a6), c29⟩

/-- The reference computes the coefficients a second time, by the same operations on the same index lists. -/
theorem norm_twice (x1 : (⟨Cert.ReferenceIdeal.S2x1600000, .i32⟩ : BufTy).Contents (Elt Ideal)) : Cert.ReferenceIdeal.Read.val_main_v95 (F := Ideal) x1 = Cert.ReferenceIdeal.Read.val_main_v30 x1 := by
  unfold Cert.ReferenceIdeal.Read.val_main_v95 Cert.ReferenceIdeal.Read.val_main_v87 Cert.ReferenceIdeal.Read.val_main_v94 Cert.ReferenceIdeal.Read.val_main_v86 Cert.ReferenceIdeal.Read.val_main_v93 Cert.ReferenceIdeal.Read.val_main_v85 Cert.ReferenceIdeal.Read.val_main_v92 Cert.ReferenceIdeal.Read.val_main_v82 Cert.ReferenceIdeal.Read.val_main_v84 Cert.ReferenceIdeal.Read.val_main_v89 Cert.ReferenceIdeal.Read.val_main_v91 Cert.ReferenceIdeal.Read.val_main_v81 Cert.ReferenceIdeal.Read.val_main_v83 Cert.ReferenceIdeal.Read.val_main_v88 Cert.ReferenceIdeal.Read.val_main_v90 Cert.ReferenceIdeal.Read.val_main_c_18 Cert.ReferenceIdeal.Read.val_main_c_19 Cert.ReferenceIdeal.Read.val_main_c_20 Cert.ReferenceIdeal.Read.val_main_c_21 Cert.ReferenceIdeal.Read.val_main_v80 Cert.ReferenceIdeal.Read.val_main_v78 Cert.ReferenceIdeal.Read.val_main_v79 Cert.ReferenceIdeal.Read.val_main_v76 Cert.ReferenceIdeal.Read.val_main_v77 Cert.ReferenceIdeal.Read.val_main_v74 Cert.ReferenceIdeal.Read.val_main_v75 Cert.ReferenceIdeal.Read.val_main_v73 Cert.ReferenceIdeal.Read.val_main_call2_v1 Cert.ReferenceIdeal.Read.val_main_call2_v0 Cert.ReferenceIdeal.Read.val_main_cst_17 Cert.ReferenceIdeal.Read.val_main_cst_14 Cert.ReferenceIdeal.Read.val_main_cst_15 Cert.ReferenceIdeal.Read.val_main_cst_16
  unfold Cert.ReferenceIdeal.Read.val_main_v30 Cert.ReferenceIdeal.Read.val_main_v22 Cert.ReferenceIdeal.Read.val_main_v29 Cert.ReferenceIdeal.Read.val_main_v21 Cert.ReferenceIdeal.Read.val_main_v28 Cert.ReferenceIdeal.Read.val_main_v20 Cert.ReferenceIdeal.Read.val_main_v27 Cert.ReferenceIdeal.Read.val_main_v17 Cert.ReferenceIdeal.Read.val_main_v19 Cert.ReferenceIdeal.Read.val_main_v24 Cert.ReferenceIdeal.Read.val_main_v26 Cert.ReferenceIdeal.Read.val_main_v16 Cert.ReferenceIdeal.Read.val_main_v18 Cert.ReferenceIdeal.Read.val_main_v23 Cert.ReferenceIdeal.Read.val_main_v25 Cert.ReferenceIdeal.Read.val_main_c Cert.ReferenceIdeal.Read.val_main_c_3 Cert.ReferenceIdeal.Read.val_main_c_4 Cert.ReferenceIdeal.Read.val_main_c_5 Cert.ReferenceIdeal.Read.val_main_v15 Cert.ReferenceIdeal.Read.val_main_v13 Cert.ReferenceIdeal.Read.val_main_v14 Cert.ReferenceIdeal.Read.val_main_v11 Cert.ReferenceIdeal.Read.val_main_v12 Cert.ReferenceIdeal.Read.val_main_v9 Cert.ReferenceIdeal.Read.val_main_v10 Cert.ReferenceIdeal.Read.val_main_v8 Cert.ReferenceIdeal.Read.val_main_call0_v1 Cert.ReferenceIdeal.Read.val_main_call0_v0 Cert.ReferenceIdeal.Read.val_main_cst_2 Cert.ReferenceIdeal.Read.val_main_cst Cert.ReferenceIdeal.Read.val_main_cst_0 Cert.ReferenceIdeal.Read.val_main_cst_1
  rfl

/-! ## The first aggregation -/

/-- Gather the source rows of the first layer's products, scale each by its edge's coefficient, scatter-add into
    the target rows. -/
theorem host_agg1 (x0 : (⟨Cert.ReferenceIdeal.S100000x64, .f32⟩ : BufTy).Contents (Elt Ideal)) (x1 : (⟨Cert.ReferenceIdeal.S2x1600000, .i32⟩ : BufTy).Contents (Elt Ideal)) (x3 : (⟨Cert.ReferenceIdeal.S64x128, .f32⟩ : BufTy).Contents (Elt Ideal)) (h30 : Wp main_v30 = Cert.ReferenceIdeal.Read.val_main_v7 x0 x3)
    (h3 : Wp main_v3 = Cert.ReferenceIdeal.Read.val_main_v3 x1) (h6 : Wp main_v6 = Cert.ReferenceIdeal.Read.val_main_v6 x1) (h29 : Wp main_v29 = Cert.ReferenceIdeal.Read.val_main_v30 x1) :
    StableHlo.after hostOps1 Wp main_v43 = Cert.ReferenceIdeal.Read.val_main_v43 x0 x1 x3 := by
  show StableHlo.after hostOps1 Wp (Proc.devRef .tc main_v43) = _
  after_results_simp
  rw [h30, h3, h6, h29]
  unfold Cert.ReferenceIdeal.Read.val_main_v43 Cert.ReferenceIdeal.Read.val_main_v41 Cert.ReferenceIdeal.Read.val_main_v42 Cert.ReferenceIdeal.Read.val_main_v40 Cert.ReferenceIdeal.Read.val_main_v37 Cert.ReferenceIdeal.Read.val_main_v39 Cert.ReferenceIdeal.Read.val_main_v38 Cert.ReferenceIdeal.Read.val_main_v36 Cert.ReferenceIdeal.Read.val_main_v35 Cert.ReferenceIdeal.Read.val_main_v32 Cert.ReferenceIdeal.Read.val_main_v34 Cert.ReferenceIdeal.Read.val_main_v31 Cert.ReferenceIdeal.Read.val_main_v33 Cert.ReferenceIdeal.Read.val_main_c_6 Cert.ReferenceIdeal.Read.val_main_c_7 Cert.ReferenceIdeal.Read.val_main_cst_8
  rfl

/-- The three 128-vectors (bias, scale, shift) as 1×128 rows. -/
theorem host_rows4 : StableHlo.after hostOps1 Wp main_v44
    = shapeCast S1x128 (Wp main_arg4 : S128.Idx → Elt Ideal .f32) shapeCasts_S128_S1x128 := by
  show StableHlo.after hostOps1 Wp (Proc.devRef .tc main_v44) = _
  after_results
  rfl
theorem host_rows5 : StableHlo.after hostOps1 Wp main_v45
    = shapeCast S1x128 (Wp main_arg5 : S128.Idx → Elt Ideal .f32) shapeCasts_S128_S1x128 := by
  show StableHlo.after hostOps1 Wp (Proc.devRef .tc main_v45) = _
  after_results
  rfl
theorem host_rows6 : StableHlo.after hostOps1 Wp main_v46
    = shapeCast S1x128 (Wp main_arg6 : S128.Idx → Elt Ideal .f32) shapeCasts_S128_S1x128 := by
  show StableHlo.after hostOps1 Wp (Proc.devRef .tc main_v46) = _
  after_results
  rfl

/-- Read at an index: entry (0, k) of the row is entry k of the vector. -/
theorem host_rows4_apply (u : Fin 1) (k : Fin 128) :
    StableHlo.after hostOps1 Wp main_v44 (ValueIdx.ix2 u k) = Wp main_arg4 (ValueIdx.ix1 k) := by
  rw [host_rows4]
  exact ValueIdx.shapeCast_a_1a_apply _ _ u k
theorem host_rows5_apply (u : Fin 1) (k : Fin 128) :
    StableHlo.after hostOps1 Wp main_v45 (ValueIdx.ix2 u k) = Wp main_arg5 (ValueIdx.ix1 k) := by
  rw [host_rows5]
  exact ValueIdx.shapeCast_a_1a_apply _ _ u k
theorem host_rows6_apply (u : Fin 1) (k : Fin 128) :
    StableHlo.after hostOps1 Wp main_v46 (ValueIdx.ix2 u k) = Wp main_arg6 (ValueIdx.ix1 k) := by
  rw [host_rows6]
  exact ValueIdx.shapeCast_a_1a_apply _ _ u k

/-! ## The second aggregation, the bias, the one-hot table -/

/-- Gather, scale, scatter-add on the second layer's products, then the bias row added to every row. -/
theorem host_agg2 (x0 : (⟨Cert.ReferenceIdeal.S100000x64, .f32⟩ : BufTy).Contents (Elt Ideal)) (x1 : (⟨Cert.ReferenceIdeal.S2x1600000, .i32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (h48 : Wp main_v48 = Cert.ReferenceIdeal.Read.val_main_v72 x0 x1 x3 x4 x5 x6 x7)
    (h3 : Wp main_v3 = Cert.ReferenceIdeal.Read.val_main_v3 x1) (h6 : Wp main_v6 = Cert.ReferenceIdeal.Read.val_main_v6 x1) (h29 : Wp main_v29 = Cert.ReferenceIdeal.Read.val_main_v30 x1)
    (h8 : Wp main_arg8 = x8) :
    StableHlo.after hostOps3 Wp main_v64 = Cert.ReferenceIdeal.Read.val_main_v111 x0 x1 x3 x4 x5 x6 x7 x8 := by
  show StableHlo.after hostOps3 Wp (Proc.devRef .tc main_v64) = _
  after_results_simp
  rw [h48, h3, h6, h29, h8]
  unfold Cert.ReferenceIdeal.Read.val_main_v111 Cert.ReferenceIdeal.Read.val_main_v108 Cert.ReferenceIdeal.Read.val_main_v110 Cert.ReferenceIdeal.Read.val_main_v109 Cert.ReferenceIdeal.Read.val_main_v106 Cert.ReferenceIdeal.Read.val_main_v107 Cert.ReferenceIdeal.Read.val_main_v105 Cert.ReferenceIdeal.Read.val_main_v102 Cert.ReferenceIdeal.Read.val_main_v104 Cert.ReferenceIdeal.Read.val_main_v103 Cert.ReferenceIdeal.Read.val_main_v101 Cert.ReferenceIdeal.Read.val_main_v100 Cert.ReferenceIdeal.Read.val_main_v97 Cert.ReferenceIdeal.Read.val_main_v99 Cert.ReferenceIdeal.Read.val_main_v96 Cert.ReferenceIdeal.Read.val_main_v98 Cert.ReferenceIdeal.Read.val_main_c_22 Cert.ReferenceIdeal.Read.val_main_c_23 Cert.ReferenceIdeal.Read.val_main_cst_24
  rw [norm_twice]
  rfl

/-- The table of graph membership: entry (n, g) is one when node n belongs to graph g, else zero. -/
theorem host_onehot (x2 : (⟨S100000, .i32⟩ : BufTy).Contents (Elt Ideal)) (h2 : Wp main_arg2 = x2) :
    StableHlo.after hostOps3 Wp main_v71
      = uitofp (F := Ideal) .bf16 (cmpi .eq
          (broadcastInDim S100000x64 ![0, 1] bcast_S100000x1_S100000x64_0_1 (broadcastInDim S100000x1 ![0] bcast_S100000_S100000x1_0 x2))
          (broadcastInDim S100000x64 ![0, 1] bcast_S1x64_S100000x64_0_1 (broadcastInDim S1x64 ![1] bcast_S64_S1x64_1 (iotaInDim S64 32 0)))) := by
  show StableHlo.after hostOps3 Wp (Proc.devRef .tc main_v71) = _
  after_results
  rw [h2]

/-! ## The counts and the division -/

/-- Per-graph sums divided by the per-graph node counts (at least one). -/
theorem host_mean (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (h72 : Wp main_v72 = Cert.ReferenceIdeal.Read.val_main_v114 x0 x1 x2 x3 x4 x5 x6 x7 x8) (h2 : Wp main_arg2 = x2) :
    StableHlo.after hostOps4 Wp main_v81 = Cert.ReferenceIdeal.Read.val_main_v123 x0 x1 x2 x3 x4 x5 x6 x7 x8 := by
  show StableHlo.after hostOps4 Wp (Proc.devRef .tc main_v81) = _
  after_results
  rw [h72, h2]
  unfold Cert.ReferenceIdeal.Read.val_main_v123 Cert.ReferenceIdeal.Read.val_main_v122 Cert.ReferenceIdeal.Read.val_main_v121 Cert.ReferenceIdeal.Read.val_main_v120 Cert.ReferenceIdeal.Read.val_main_v118 Cert.ReferenceIdeal.Read.val_main_v119 Cert.ReferenceIdeal.Read.val_main_v116 Cert.ReferenceIdeal.Read.val_main_v117 Cert.ReferenceIdeal.Read.val_main_v115 Cert.ReferenceIdeal.Read.val_main_cst_26 Cert.ReferenceIdeal.Read.val_main_cst_27 Cert.ReferenceIdeal.Read.val_main_cst_28
  rfl

end Cert.KernelIdeal.Values

end
-- ==== Proof.Value.Bridge1.lean ====
/-
  The idealized kernel program's two results are the reference's. The program's valuations are walked item by item:
  the edge lists and the normalisation coefficients (host operations shared with the reference), the first linear
  layer (a launch: row blocks of a matrix product are the rows of the whole product), the first aggregation (shared
  host operations), bias + row normalisation + ReLU (a launch: row by row the reference's formula), the second
  linear layer, the second aggregation and bias (the first result), the pooled sums (a launch: a one-hot matrix
  product accumulated over row blocks is the reference's scatter-add, since 0·x = 0 and 1·x = x for every extended
  real and addition is commutative and associative), the counts and the division (the second result).
-/
import proofs.«424110_j77214922048129_1_alg».proof.Proof.KernelIdealFrame.Frame
import proofs.«424110_j77214922048129_1_alg».proof.Proof.Value.Lin
import proofs.«424110_j77214922048129_1_alg».proof.Proof.Value.Norm
import proofs.«424110_j77214922048129_1_alg».proof.Proof.Value.Host
import proofs.«424110_j77214922048129_1_alg».proof.Proof.ReferenceRead

set_option maxRecDepth 16384

noncomputable section

namespace Cert.KernelIdeal.Values

open Cert.KernelIdeal Cert.KernelIdeal.Gen Cert.KernelIdeal.Frames
open Idealize.ShloMosaic Idealize.ShloMosaic.TcCoe Idealize.SL.Sem

variable (m : (ℓ : Loc nD τ sig) → Buf (Elt Ideal) ℓ) (c : Dev nD)

/-! ## References no item writes keep their contents -/

theorem keep3 (b : Ref sig .tc) (h0 : b ∉ hostOps0_W) (h1 : b ∉ hostOps0_1_W) (h2 : b ∉ hostOps0_2_W) :
    W3 m c (Proc.devRef .tc b) = m ((c : Thread nD τ).loc b) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))
theorem keep5 (b : Ref sig .tc) (h : b ∉ hostOps1_W) : W5 m c (Proc.devRef .tc b) = W4 m c (Proc.devRef .tc b) :=
  StableHlo.after_of_writes_sub hostOps1 _ hostOps1_writes h
theorem keep8 (b : Ref sig .tc) (h : b ∉ hostOps3_W) : W8 m c (Proc.devRef .tc b) = W7 m c (Proc.devRef .tc b) :=
  StableHlo.after_of_writes_sub hostOps3 _ hostOps3_writes h
theorem keep10 (b : Ref sig .tc) (h : b ∉ hostOps4_W) : W10 m c (Proc.devRef .tc b) = W9 m c (Proc.devRef .tc b) :=
  StableHlo.after_of_writes_sub hostOps4 _ hostOps4_writes h

/-! ## Stage by stage -/

theorem edges3 : W3 m c (Proc.devRef .tc main_v3) = Cert.ReferenceIdeal.Read.val_main_v3 (F := Ideal) (m ((c : Thread nD τ).loc main_arg1))
    ∧ W3 m c (Proc.devRef .tc main_v6) = Cert.ReferenceIdeal.Read.val_main_v6 (F := Ideal) (m ((c : Thread nD τ).loc main_arg1))
    ∧ W3 m c (Proc.devRef .tc main_v29) = Cert.ReferenceIdeal.Read.val_main_v30 (F := Ideal) (m ((c : Thread nD τ).loc main_arg1)) :=
  host_edges (W0 m c) _ rfl

/-- After the first launch: the product array, and the edge data carried over. -/
theorem lin1_at : W4 m c (Proc.devRef .tc main_v30) = Cert.ReferenceIdeal.Read.val_main_v7 (F := Ideal) (m ((c : Thread nD τ).loc main_arg0)) (m ((c : Thread nD τ).loc main_arg3)) := by
  refine ((W4_arr m c 2).trans (lin1_value (VE0 m) c)).trans ?_
  rw [show VE0 m c main_arg0 = (m ((c : Thread nD τ).loc main_arg0)) from keep3 m c main_arg0 (by decide) (by decide) (by decide),
    show VE0 m c main_arg3 = (m ((c : Thread nD τ).loc main_arg3)) from keep3 m c main_arg3 (by decide) (by decide) (by decide)]

theorem edges4 : W4 m c (Proc.devRef .tc main_v3) = Cert.ReferenceIdeal.Read.val_main_v3 (F := Ideal) (m ((c : Thread nD τ).loc main_arg1))
    ∧ W4 m c (Proc.devRef .tc main_v6) = Cert.ReferenceIdeal.Read.val_main_v6 (F := Ideal) (m ((c : Thread nD τ).loc main_arg1))
    ∧ W4 m c (Proc.devRef .tc main_v29) = Cert.ReferenceIdeal.Read.val_main_v30 (F := Ideal) (m ((c : Thread nD τ).loc main_arg1)) :=
  ⟨(W4_of_ne m c main_v3 (by decide)).trans (edges3 m c).1, (W4_of_ne m c main_v6 (by decide)).trans (edges3 m c).2.1,
    (W4_of_ne m c main_v29 (by decide)).trans (edges3 m c).2.2⟩

theorem agg1_at : W5 m c (Proc.devRef .tc main_v43) = Cert.ReferenceIdeal.Read.val_main_v43 (F := Ideal) (m ((c : Thread nD τ).loc main_arg0)) (m ((c : Thread nD τ).loc main_arg1)) (m ((c : Thread nD τ).loc main_arg3)) :=
  host_agg1 (W4 m c) _ _ _ (lin1_at m c) (edges4 m c).1 (edges4 m c).2.1 (edges4 m c).2.2

theorem edges6 : W6 m c (Proc.devRef .tc main_v3) = Cert.ReferenceIdeal.Read.val_main_v3 (F := Ideal) (m ((c : Thread nD τ).loc main_arg1))
    ∧ W6 m c (Proc.devRef .tc main_v6) = Cert.ReferenceIdeal.Read.val_main_v6 (F := Ideal) (m ((c : Thread nD τ).loc main_arg1))
    ∧ W6 m c (Proc.devRef .tc main_v29) = Cert.ReferenceIdeal.Read.val_main_v30 (F := Ideal) (m ((c : Thread nD τ).loc main_arg1)) :=
  ⟨(W6_of_ne m c main_v3 (by decide)).trans ((keep5 m c main_v3 (by decide)).trans (edges4 m c).1),
    (W6_of_ne m c main_v6 (by decide)).trans ((keep5 m c main_v6 (by decide)).trans (edges4 m c).2.1),
    (W6_of_ne m c main_v29 (by decide)).trans ((keep5 m c main_v29 (by decide)).trans (edges4 m c).2.2)⟩

/-- An argument that reaches the first aggregation's host stretch unchanged. -/
theorem keep4 (b : Ref sig .tc) (h0 : b ∉ hostOps0_W) (h1 : b ∉ hostOps0_1_W) (h2 : b ∉ hostOps0_2_W)
    (hne : ∀ w, Pipeline.arrRef spec0 w ≠ b) : W4 m c (Proc.devRef .tc b) = m ((c : Thread nD τ).loc b) :=
  (W4_of_ne m c b hne).trans (keep3 m c b h0 h1 h2)

theorem row4 : rowOf (VE1 m c main_v44) = (m ((c : Thread nD τ).loc main_arg4)) := by
  funext k
  show StableHlo.after hostOps1 (W4 m c) (Proc.devRef .tc main_v44) (ValueIdx.ix2 0 (k 0)) = _
  rw [host_rows4_apply (W4 m c) 0 (k 0), keep4 m c main_arg4 (by decide) (by decide) (by decide) (by decide)]
  exact congrArg _ (ValueIdx.eq_ix1 k).symm
theorem row5 : rowOf (VE1 m c main_v45) = (m ((c : Thread nD τ).loc main_arg5)) := by
  funext k
  show StableHlo.after hostOps1 (W4 m c) (Proc.devRef .tc main_v45) (ValueIdx.ix2 0 (k 0)) = _
  rw [host_rows5_apply (W4 m c) 0 (k 0), keep4 m c main_arg5 (by decide) (by decide) (by decide) (by decide)]
  exact congrArg _ (ValueIdx.eq_ix1 k).symm
theorem row6 : rowOf (VE1 m c main_v46) = (m ((c : Thread nD τ).loc main_arg6)) := by
  funext k
  show StableHlo.after hostOps1 (W4 m c) (Proc.devRef .tc main_v46) (ValueIdx.ix2 0 (k 0)) = _
  rw [host_rows6_apply (W4 m c) 0 (k 0), keep4 m c main_arg6 (by decide) (by decide) (by decide) (by decide)]
  exact congrArg _ (ValueIdx.eq_ix1 k).symm

/-- After the second launch: bias, row normalisation and ReLU of the aggregated array, as the reference computes them. -/
theorem relu_at : W6 m c (Proc.devRef .tc main_v47) = Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine ((W6_arr m c 4).trans (norm_value (VE1 m) c)).trans ?_
  rw [row4, row5, row6, show VE1 m c main_v43 = _ from agg1_at m c]
  exact (norm_ref _ _ _ _ _ _).symm

end Cert.KernelIdeal.Values

end
-- ==== Proof.Value.PoolSpec.lean ====
/-
  The pooled sums, as a specification, and the one-hot assignment matrix the kernel's host code builds.
  Global sum-pooling of node features over graphs: entry `(g, f)` of the result is the sum, over the nodes `n` of
  graph `g`, of feature `f` of node `n`. Written with an assignment matrix `oh` (`oh (n, g) = 1` when node `n` is in
  graph `g`, else `0`) it is the matrix product `ohᵀ · h`: `∑ n, oh (n, g) * h (n, f)`.
-/
import proofs.«424110_j77214922048129_1_alg».proof.Proof.Gen.KernelIdeal
import Idealize.ShloMosaic.Lib.ValueIdx
import Idealize.ShloMosaic.Lib.Pipeline.Value
import Idealize.ShloMosaic.Lib.StableHlo.Predicate
import Idealize.ShloMosaic.PureOps.Ideal

set_option maxRecDepth 16384

noncomputable section

namespace Cert.KernelIdeal.Values

open Cert.KernelIdeal Cert.KernelIdeal.Gen
open Idealize.ShloMosaic Idealize.ShloMosaic.ValueIdx
open scoped BigOperators

/-! ## The specification

Entry `(g, f)` of the pooled array: the sum over all 100000 nodes `n` of the one-hot weight of node `n` for graph `g`
times feature `f` of node `n`. -/

/-- The pooled sums of the rows of `h` weighted by the columns of `oh`. -/
def poolSum (oh h : S100000x64.Idx → EReal) : S64x64.Idx → EReal :=
  fun i => ∑ n : Fin 100000, oh (ix2 n (⟨(i 0).val, (i 0).isLt⟩ : Fin 64)) * h (ix2 n (⟨(i 1).val, (i 1).isLt⟩ : Fin 64))

theorem poolSum_apply (oh h : S100000x64.Idx → EReal) (g f : Fin 64) :
    poolSum oh h (ix2 g f) = ∑ n : Fin 100000, oh (ix2 n g) * h (ix2 n f) := rfl

/-! ## The one-hot assignment matrix

The host builds it from the batch vector: entry `(n, g)` compares `batch n` (laid along the rows) with `g` (an iota laid
along the columns) and converts the one-bit result to a float: `1` where node `n` belongs to graph `g`, else `0`. -/

/-- The assignment matrix as a function of the batch vector, in the operations that build it. -/
def onehot (x2 : S100000.Idx → BitVec 32) : S100000x64.Idx → EReal :=
  uitofp (F := Ideal) .bf16
    (cmpi .eq
      (broadcastInDim S100000x64 ![0, 1] bcast_S100000x1_S100000x64_0_1 (broadcastInDim S100000x1 ![0] bcast_S100000_S100000x1_0 x2))
      (broadcastInDim S100000x64 ![0, 1] bcast_S1x64_S100000x64_0_1 (broadcastInDim S1x64 ![1] bcast_S64_S1x64_1 (iotaInDim S64 32 0))))

/-- The batch vector laid along the rows reads `batch n` at `(n, g)`. -/
theorem rows_apply (x2 : S100000.Idx → BitVec 32) (n : Fin 100000) (g : Fin 64) :
    broadcastInDim S100000x64 ![0, 1] bcast_S100000x1_S100000x64_0_1 (broadcastInDim S100000x1 ![0] bcast_S100000_S100000x1_0 x2) (ix2 n g)
      = x2 (ix1 n) :=
  (broadcastInDim_apply _ bcast_S100000x1_S100000x64_0_1 _ (ix2 n g) (ix2 n (0 : Fin 1)) (fun a => match a with
    | ⟨0, _⟩ => by show n.val = if (100000 : Nat) = 1 then 0 else n.val; rw [if_neg (by decide)]
    | ⟨1, _⟩ => by show (0 : Nat) = if (1 : Nat) = 1 then 0 else g.val; rw [if_pos rfl])).trans
  (broadcastInDim_apply _ bcast_S100000_S100000x1_0 x2 (ix2 n (0 : Fin 1)) (ix1 n) (fun a => match a with
    | ⟨0, _⟩ => by show n.val = if (100000 : Nat) = 1 then 0 else n.val; rw [if_neg (by decide)]))

/-- The iota laid along the columns reads `g` at `(n, g)`. -/
theorem cols_apply (n : Fin 100000) (g : Fin 64) :
    broadcastInDim S100000x64 ![0, 1] bcast_S1x64_S100000x64_0_1 (broadcastInDim S1x64 ![1] bcast_S64_S1x64_1 (iotaInDim S64 32 0)) (ix2 n g)
      = BitVec.ofNat 32 g.val :=
  (broadcastInDim_apply _ bcast_S1x64_S100000x64_0_1 _ (ix2 n g) (ix2 (0 : Fin 1) g) (fun a => match a with
    | ⟨0, _⟩ => by show (0 : Nat) = if (1 : Nat) = 1 then 0 else n.val; rw [if_pos rfl]
    | ⟨1, _⟩ => by show g.val = if (64 : Nat) = 1 then 0 else g.val; rw [if_neg (by decide)])).trans
  ((broadcastInDim_apply _ bcast_S64_S1x64_1 (iotaInDim S64 32 0) (ix2 (0 : Fin 1) g) (ix1 g) (fun a => match a with
    | ⟨0, _⟩ => by show g.val = if (64 : Nat) = 1 then 0 else g.val; rw [if_neg (by decide)])).trans rfl)

/-- Entry `(n, g)` of the assignment matrix is `1` when `batch n` is the word `g`, else `0`. -/
theorem onehot_apply (x2 : S100000.Idx → BitVec 32) (n : Fin 100000) (g : Fin 64) :
    onehot x2 (ix2 n g) = if x2 (ix1 n) = BitVec.ofNat 32 g.val then 1 else 0 := by
  unfold onehot
  show FloatOps.uitofp (F := Ideal) .bf16 (IntOp.cmpi .eq (broadcastInDim S100000x64 ![0, 1] bcast_S100000x1_S100000x64_0_1 (broadcastInDim S100000x1 ![0] bcast_S100000_S100000x1_0 x2) (ix2 n g)) (broadcastInDim S100000x64 ![0, 1] bcast_S1x64_S100000x64_0_1 (broadcastInDim S1x64 ![1] bcast_S64_S1x64_1 (iotaInDim S64 32 0)) (ix2 n g))) = _
  rw [rows_apply, cols_apply]
  show (((IntOp.cmpi .eq (x2 (ix1 n)) (BitVec.ofNat 32 g.val)).toNat : ℝ) : EReal) = _
  by_cases hq : x2 (ix1 n) = BitVec.ofNat 32 g.val
  · rw [if_pos hq, StableHlo.Predicate.cmpi_eq_iff.mpr hq]; simp
  · rw [if_neg hq, eq_zero_of_ne_one (fun h1 => hq (StableHlo.Predicate.cmpi_eq_iff.mp h1))]; simp

end Cert.KernelIdeal.Values
-- ==== Proof.Value.PoolKernel.lean ====
/-
  The pooling launch, read as a whole-array sum.
  The launch cuts both of its inputs into twenty blocks of 5000 rows; its accumulator starts at zero and at point `t`
  gains, at entry (g, f), the sum over the block's rows r of x₀ (r, g) · x₁ (r, f): at the ideal instance rounding to
  the narrow format is the identity and the product's own accumulator is zero. So after `n` points the accumulator holds
  at (g, f) the sum over the first 5000·n rows of the two arrays, and after all twenty the sum over all 100000 rows.
  The output's block is its whole array and is written back once, after the last point.
-/
import proofs.«424110_j77214922048129_1_alg».proof.Proof.KernelIdealFrame.Region3
import proofs.«424110_j77214922048129_1_alg».proof.Proof.Value.PoolSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Values

open Cert.KernelIdeal Cert.KernelIdeal.Gen Cert.KernelIdeal.Frames
open Idealize.ShloMosaic Idealize.ShloMosaic.TcCoe Idealize.SL.Sem
open Idealize.ShloMosaic.Pipeline (Dat)
open Idealize.ShloMosaic.ValueIdx
open scoped BigOperators

/-! ## The body's product: both operands contracted over their rows -/

theorem pk3_lhs_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem pk3_lhs_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem pk3_rhs_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem pk3_rhs_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The two coordinates of an entry of the result, as column indices of the inputs. -/
abbrev pk3_colG (j : S64x64.Idx) : Fin 64 := ⟨(j 0).val, (j 0).isLt⟩
abbrev pk3_colF (j : S64x64.Idx) : Fin 64 := ⟨(j 1).val, (j 1).isLt⟩

/-- The body's new accumulator at an entry: the old one plus the sum over the block's rows. -/
theorem pk3_pay2_apply (x0 : Vec Ideal S5000x64 .bf16) (x1 : Vec Ideal S5000x64 .f32) (s : Vec Ideal S64x64 .f32) (j : S64x64.Idx) :
    k3_pay2 (F := Ideal) x0 x1 s j = s j + ∑ r : Fin 5000, x0 (ix2 r (pk3_colG j)) * x1 (ix2 r (pk3_colF j)) := by
  unfold k3_pay2
  simp only [shapeCast_self]
  rw [addf_apply]
  show s j + FloatOps.matmul (F := Ideal) (φ₁ := .bf16) (φ₂ := .bf16) dot_S5000x64_S5000x64_S64x64_0_0_1_1_n_n none x0 x1 (constant (F := Ideal) S64x64 .f32 0x00000000#32) j = _
  rw [Ideal.matmul_constant_zero_apply, ← Equiv.sum_comp (ValueIdx.contrEquiv1 dot_S5000x64_S5000x64_S64x64_0_0_1_1_n_n 5000 rfl rfl).symm]
  refine congrArg (s j + ·) (Finset.sum_congr rfl fun r _ => ?_)
  have hk := ValueIdx.contrEquiv1_symm_val dot_S5000x64_S5000x64_S64x64_0_0_1_1_n_n 5000 rfl rfl r
  have el : dot_S5000x64_S5000x64_S64x64_0_0_1_1_n_n.lhsIdx j ((ValueIdx.contrEquiv1 dot_S5000x64_S5000x64_S64x64_0_0_1_1_n_n 5000 rfl rfl).symm r) = ix2 r (pk3_colG j) := funext fun a => Fin.ext (by
    match a with
    | ⟨0, _⟩ => exact (pk3_lhs_0 _ _).trans hk
    | ⟨1, _⟩ => exact pk3_lhs_1 _ _)
  have er : dot_S5000x64_S5000x64_S64x64_0_0_1_1_n_n.rhsIdx j ((ValueIdx.contrEquiv1 dot_S5000x64_S5000x64_S64x64_0_0_1_1_n_n 5000 rfl rfl).symm r) = ix2 r (pk3_colF j) := funext fun a => Fin.ext (by
    match a with
    | ⟨0, _⟩ => exact (pk3_rhs_0 _ _).trans hk
    | ⟨1, _⟩ => exact pk3_rhs_1 _ _)
  rw [el, er]

/-- The accumulator starts at zero. -/
theorem pk3_zero_apply (j : S64x64.Idx) : zero3 (F := Ideal) j = 0 := by
  unfold zero3
  rw [View.canon_unit_zero (S := S64x64) off3]
  unfold k3_pay1
  simp only [shapeCast_self]
  exact Ideal.ofBits_zero_f32

/-- One step at an entry. -/
theorem pk3_step_apply (x0 : Vec Ideal S5000x64 .bf16) (x1 : Vec Ideal S5000x64 .f32) (s : Vec Ideal S64x64 .f32) (j : S64x64.Idx) :
    step3 (F := Ideal) x0 x1 s j = s j + ∑ r : Fin 5000, x0 (ix2 r (pk3_colG j)) * x1 (ix2 r (pk3_colF j)) := by
  unfold step3
  rw [View.canon_unit_zero (S := S64x64) off3]
  simp only [View.ld_unit_zero (S := S64x64) off3, View.ld_unit_zero (S := S5000x64) off3]
  exact pk3_pay2_apply x0 x1 s j

/-! ## The blocks and the running sum -/

/-- The printed index maps over the twenty points: both inputs' row blocks move with the point, the output's stays. -/
theorem pk3_idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0 :=
  (by decide +kernel : ∀ t : Fin grid3.N, _)

/-- Row `m`'s term of the sum at entry (g, f); zero past the arrays' last row. -/
def pk3_term (oh h : S100000x64.Idx → EReal) (g f : Fin 64) (m : ℕ) : EReal :=
  if hm : m < 100000 then oh (ix2 (⟨m, hm⟩ : Fin 100000) g) * h (ix2 (⟨m, hm⟩ : Fin 100000) f) else 0

variable (V : (c : Dev nD) → (b : Ref sig .tc) → Buf (Elt Ideal) ((c : Thread nD τ).loc b))

/-- Row `r` of block `t` of the assignment matrix is row 5000·t + r of the array. -/
theorem pk3_iblk0_apply (c : Dev nD) (t : Fin cfg3.N) (r : Fin 5000) (g : Fin 64) (hm : 5000 * t.val + r.val < 100000) :
    iblk3 (F := Ideal) V c 0 t (ix2 r g) = V c main_v71 (ix2 (⟨5000 * t.val + r.val, hm⟩ : Fin 100000) g) := by
  obtain ⟨e0, e1, e2, e3, e4, e5⟩ := pk3_idx_facts t
  show V c main_v71 (((cfg3.win 0).blk t).view.emb (ix2 r g)) = _
  refine congrArg (V c main_v71) (funext fun a => Fin.ext ?_)
  match a with
  | ⟨0, _⟩ => show win3_0.index t (0 : Fin 2) * 5000 + 1 * r.val = 5000 * t.val + r.val; omega
  | ⟨1, _⟩ => show win3_0.index t (1 : Fin 2) * 64 + 1 * g.val = g.val; omega

/-- Row `r` of block `t` of the features is row 5000·t + r of the array. -/
theorem pk3_iblk1_apply (c : Dev nD) (t : Fin cfg3.N) (r : Fin 5000) (f : Fin 64) (hm : 5000 * t.val + r.val < 100000) :
    iblk3 (F := Ideal) V c 1 t (ix2 r f) = V c main_v64 (ix2 (⟨5000 * t.val + r.val, hm⟩ : Fin 100000) f) := by
  obtain ⟨e0, e1, e2, e3, e4, e5⟩ := pk3_idx_facts t
  show V c main_v64 (((cfg3.win 1).blk t).view.emb (ix2 r f)) = _
  refine congrArg (V c main_v64) (funext fun a => Fin.ext ?_)
  match a with
  | ⟨0, _⟩ => show win3_1.index t (0 : Fin 2) * 5000 + 1 * r.val = 5000 * t.val + r.val; omega
  | ⟨1, _⟩ => show win3_1.index t (1 : Fin 2) * 64 + 1 * f.val = f.val; omega

/-- After `n` points the accumulator holds, at each entry, the sum over the first 5000·n rows. -/
theorem pk3_acc_eq (c : Dev nD) (n : ℕ) (hn : n ≤ 20) (j : S64x64.Idx) :
    acc3 (F := Ideal) V c n j = ∑ m ∈ Finset.range (5000 * n), pk3_term (V c main_v71) (V c main_v64) (pk3_colG j) (pk3_colF j) m := by
  induction n with
  | zero =>
    show zero3 (F := Ideal) j = _
    rw [pk3_zero_apply, Nat.mul_zero, Finset.sum_range_zero]
  | succ n ih =>
    have hN : n < cfg3.N := lt_of_lt_of_eq (by omega : n < 20) (N_3.symm : 20 = cfg3.N)
    rw [acc3_succ V c ⟨n, hN⟩, pk3_step_apply, ih (by omega), Nat.mul_succ, Finset.sum_range_add]
    refine congrArg (_ + ·) ?_
    rw [Finset.sum_range]
    refine Finset.sum_congr rfl fun r _ => ?_
    have hm : 5000 * n + r.val < 100000 := by have := r.isLt; omega
    rw [pk3_iblk0_apply V c ⟨n, hN⟩ r (pk3_colG j) hm, pk3_iblk1_apply V c ⟨n, hN⟩ r (pk3_colF j) hm]
    unfold pk3_term
    rw [dif_pos hm]

/-! ## The output array -/

/-- What the last point writes back is the whole-array sum. -/
theorem pool_flushed_eq (c : Dev nD) (t : Fin cfg3.N) (hf : (cfg3.win 2).flush t = true) :
    (dat3 (F := Ideal) V c).flushed 2 t = ((cfg3.win 2).blk t).view.read (Elt Ideal) (poolSum (V c main_v71) (V c main_v64)) := by
  show (cfg3.win 2).cut (grid3.coords t) ((dat3 (F := Ideal) V c).after 2 t) = _
  have hlt : t.val < 20 := lt_of_lt_of_eq t.isLt (N_3 : cfg3.N = 20)
  have ht : t.val + 1 = 20 := by have := (flush3_2 t).mp hf; omega
  rw [after3_2, ht]
  obtain ⟨e0, e1, e2, e3, e4, e5⟩ := pk3_idx_facts t
  have key : ∀ (G : S64x64.Idx → EReal) (X : Vec Ideal S64x64 .f32), (∀ j, X j = G j) →
      (cfg3.win 2).cut (grid3.coords t) X = ((cfg3.win 2).blk t).view.read (Elt Ideal) G := by
    intro G X hX
    funext j
    show X j = G (((cfg3.win 2).blk t).view.emb j)
    have he : ((cfg3.win 2).blk t).view.emb j = j := funext fun a => Fin.ext (by
      match a with
      | ⟨0, _⟩ => show win3_2.index t (0 : Fin 2) * 64 + 1 * (j 0).val = (j 0).val; omega
      | ⟨1, _⟩ => show win3_2.index t (1 : Fin 2) * 64 + 1 * (j 1).val = (j 1).val; omega)
    rw [he]; exact hX j
  refine key _ _ (fun j => ?_)
  have h20 := pk3_acc_eq V c 20 le_rfl j
  rw [show 5000 * 20 = 100000 from rfl, Finset.sum_range] at h20
  rw [h20]
  unfold poolSum
  refine Finset.sum_congr rfl fun m _ => ?_
  unfold pk3_term
  rw [dif_pos m.isLt]

/-- The last point's block is the whole output array. -/
theorem pool_cover (i : S64x64.Idx) :
    ∃ t : Fin cfg3.N, (cfg3.win 2).flush t = true ∧ i ∈ ((cfg3.win 2).blk t).view.set := by
  have hN : 19 < cfg3.N := lt_of_lt_of_eq (by decide : 19 < 20) (N_3.symm : 20 = cfg3.N)
  refine ⟨⟨19, hN⟩, (flush3_2 ⟨19, hN⟩).mpr rfl, ?_⟩
  obtain ⟨e0, e1, e2, e3, e4, e5⟩ := pk3_idx_facts ⟨19, hN⟩
  show i ∈ ((View.whole main_v72).slice (win3_2.rect ⟨19, hN⟩)).set
  rw [View.set_slice_whole, Rect.mem_set_unit]
  intro a
  have hi0 : (i 0).val < 64 := (i 0).isLt
  have hi1 : (i 1).val < 64 := (i 1).isLt
  match a with
  | ⟨0, _⟩ => show win3_2.index ⟨19, hN⟩ (0 : Fin 2) * 64 ≤ (i 0).val ∧ (i 0).val < win3_2.index ⟨19, hN⟩ (0 : Fin 2) * 64 + 64; omega
  | ⟨1, _⟩ => show win3_2.index ⟨19, hN⟩ (1 : Fin 2) * 64 ≤ (i 1).val ∧ (i 1).val < win3_2.index ⟨19, hN⟩ (1 : Fin 2) * 64 + 64; omega

/-- THE POOLED ARRAY after its launch: at each entry the sum, over all rows, of the assignment matrix's column times
    the features' column, of the arrays the launch was entered from. -/
theorem pool_value (c : Dev nD) :
    (dat3 (F := Ideal) V c).arrAt 2 cfg3.N = poolSum (V c main_v71) (V c main_v64) :=
  (dat3 (F := Ideal) V c).arrAt_eq_of_cover 2 (poolSum (V c main_v71) (V c main_v64)) (fun t hf => pool_flushed_eq V c t hf) pool_cover

end Cert.KernelIdeal.Values

end
-- ==== Proof.Value.PoolRef.lean ====
/-
  The reference's pooling is the pooled sums of the one-hot assignment matrix.
  The reference scatter-adds row `n` of the features into row `batch n` of a 64×64 array of zeros; the kernel multiplies
  the transposed one-hot matrix of `batch` by the features. Entry `(g, f)` of either is the sum of `h (n, f)` over the
  nodes `n` with `batch n = g`: for the scatter because update `(n, f')` lands on `(batch n, f')` (the word read
  signed, an update outside `[0, 64)` dropped), for the product because the one-hot entry is `1` there and `0`
  elsewhere, and `1 * x = x`, `0 * x = 0` for every extended real `x`.
-/
import proofs.«424110_j77214922048129_1_alg».proof.Proof.Value.PoolSpec
import proofs.«424110_j77214922048129_1_alg».proof.Proof.ReferenceRead
import Idealize.ShloMosaic.Lib.ValueIdx
import Idealize.ShloMosaic.Lib.Pipeline.Value
import Idealize.ShloMosaic.Lib.StableHlo.Predicate
import Idealize.ShloMosaic.PureOps.Ideal
import Idealize.ShloMosaic.PureOps.Ideal.Laws

set_option maxRecDepth 16384

noncomputable section

namespace Cert.KernelIdeal.Values

open Cert.KernelIdeal Cert.KernelIdeal.Gen
open Idealize.ShloMosaic Idealize.ShloMosaic.ValueIdx
open scoped BigOperators

/-! ## The reference's scatter-add, read at an entry

The reference pools by a scatter-add into a 64×64 array of zeros: update `(n, f')` (row `n` of the
features, column `f'`) is added at row `batch n` (the word read signed, not clamped), column `f'`, and is dropped
when that row is outside `[0, 64)`. So entry `(g, f)` collects exactly the updates `(n, f)` with `batch n = g`. -/

/-- The scatter's dimension numbers: one scatter index per row of the updates (axis 0), naming a row of the
    operand; the updates' axis 1 is the window axis and goes to the operand's axis 1. -/
abbrev poolDims : ScatterDims Cert.ReferenceIdeal.S64x64 Cert.ReferenceIdeal.S100000x1 Cert.ReferenceIdeal.S100000x64 :=
  Cert.ReferenceIdeal.scatter_S64x64_S100000x1_S100000x64_1_0_0_1

/-- Update `(n, f')` reads its start index at `(n, 0)` of the scatter indices. -/
theorem poolDims_siIdx (n : Fin 100000) (f' : Fin 64) (c : Fin poolDims.scatterDimsToOperandDims.length) :
    poolDims.siIdx (ix2 n f') c = ix2 n (0 : Fin 1) := by
  funext b
  match b with
  | ⟨0, _⟩ => rfl
  | ⟨1, _⟩ =>
    apply Fin.ext
    have := c.isLt
    show c.val = 0
    have h1 : poolDims.scatterDimsToOperandDims.length = 1 := rfl
    omega

/-- On the operand's row axis the window starts at the scatter index, read signed. -/
theorem poolDims_start0 (n : Fin 100000) (f' : Fin 64) (idx : IVec Cert.ReferenceIdeal.S100000x1 32) :
    poolDims.start (ix2 n f') idx 0 = (idx (ix2 n (0 : Fin 1))).toInt := by
  unfold ScatterDims.start
  rw [dif_pos (by decide), poolDims_siIdx]

/-- On the column axis, which the scatter indices do not name, it starts at 0. -/
theorem poolDims_start1 (n : Fin 100000) (f' : Fin 64) (idx : IVec Cert.ReferenceIdeal.S100000x1 32) :
    poolDims.start (ix2 n f') idx 1 = 0 := by
  unfold ScatterDims.start
  rw [dif_neg (by decide)]

/-- The row axis is inserted: no window coordinate there. -/
theorem poolDims_window0 (n : Fin 100000) (f' : Fin 64) : poolDims.window (ix2 n f') 0 = 0 := by
  unfold ScatterDims.window
  rw [dif_neg (by decide)]

/-- The column axis carries the update's column. -/
theorem poolDims_window1 (n : Fin 100000) (f' : Fin 64) : poolDims.window (ix2 n f') 1 = f'.val := rfl

/-- Update `(n, f')` lands on entry `(g, f)` exactly when its scatter index, read signed, is `g` and `f' = f`. -/
theorem poolDims_resultIdx_iff (n : Fin 100000) (f' g f : Fin 64) (idx : IVec Cert.ReferenceIdeal.S100000x1 32) :
    poolDims.resultIdx? (ix2 n f') idx = some (ix2 g f) ↔ (idx (ix2 n (0 : Fin 1))).toInt = (g.val : Int) ∧ f' = f := by
  have hs0 := poolDims_start0 n f' idx
  have hs1 := poolDims_start1 n f' idx
  have hw0 := poolDims_window0 n f'
  have hw1 := poolDims_window1 n f'
  have hg := g.isLt
  have hf := f.isLt
  have hf' := f'.isLt
  unfold ScatterDims.resultIdx?
  split
  · next hin =>
    rw [Option.some.injEq]
    constructor
    · intro he
      have e0 := congrArg (fun i : Cert.ReferenceIdeal.S64x64.Idx => (i 0).val) he
      have e1 := congrArg (fun i : Cert.ReferenceIdeal.S64x64.Idx => (i 1).val) he
      dsimp only at e0 e1
      have b0 := (hin 0).1
      rw [hs0, hw0] at e0 b0
      rw [hs1, hw1] at e1
      refine ⟨?_, Fin.ext ?_⟩
      · show (idx (ix2 n (0 : Fin 1))).toInt = (g.val : Int)
        have : ((ix2 g f : Cert.ReferenceIdeal.S64x64.Idx) 0).val = g.val := rfl
        omega
      · have : ((ix2 g f : Cert.ReferenceIdeal.S64x64.Idx) 1).val = f.val := rfl
        omega
    · rintro ⟨e0, rfl⟩
      funext a
      match a with
      | ⟨0, _⟩ =>
        apply Fin.ext
        show (poolDims.start (ix2 n f') idx 0 + (poolDims.window (ix2 n f') 0 : Int)).toNat = g.val
        rw [hs0, hw0, e0]; omega
      | ⟨1, _⟩ =>
        apply Fin.ext
        show (poolDims.start (ix2 n f') idx 1 + (poolDims.window (ix2 n f') 1 : Int)).toNat = f'.val
        rw [hs1, hw1]; omega
  · next hout =>
    constructor
    · intro he; exact absurd he (by simp)
    · rintro ⟨e0, rfl⟩
      exfalso
      apply hout
      intro a
      match a with
      | ⟨0, _⟩ =>
        show 0 ≤ poolDims.start (ix2 n f') idx 0 + (poolDims.window (ix2 n f') 0 : Int) ∧ poolDims.start (ix2 n f') idx 0 + (poolDims.window (ix2 n f') 0 : Int) < (64 : Nat)
        rw [hs0, hw0, e0]; omega
      | ⟨1, _⟩ =>
        show 0 ≤ poolDims.start (ix2 n f') idx 1 + (poolDims.window (ix2 n f') 1 : Int) ∧ poolDims.start (ix2 n f') idx 1 + (poolDims.window (ix2 n f') 1 : Int) < (64 : Nat)
        rw [hs1, hw1]; omega

/-- A 32-bit word read signed is `g < 64` exactly when it is the word `g`. -/
theorem toInt_eq_small (w : BitVec 32) (g : Fin 64) : w.toInt = (g.val : Int) ↔ w = BitVec.ofNat 32 g.val := by
  have hg : g.val < 2 ^ 31 := by have := g.isLt; omega
  constructor
  · intro h
    apply BitVec.eq_of_toInt_eq
    rw [h, StableHlo.Predicate.toInt_ofNat_small _ hg]
  · rintro rfl
    exact StableHlo.Predicate.toInt_ofNat_small _ hg

/-- The scatter-add at entry `(g, f)`: the operand's entry plus the features `(n, f)` of the nodes `n` whose scatter index,
    read signed, is `g`. -/
theorem scatterAdd_pool_apply (x : Cert.ReferenceIdeal.S64x64.Idx → EReal) (idx : IVec Cert.ReferenceIdeal.S100000x1 32)
    (h : Cert.ReferenceIdeal.S100000x64.Idx → EReal) (g f : Fin 64) :
    Host.scatterAdd (F := Ideal) (φ := .f32) poolDims x idx h (ix2 g f)
      = x (ix2 g f) + ∑ n : Fin 100000, if (idx (ix2 n (0 : Fin 1))).toInt = (g.val : Int) then h (ix2 n f) else 0 := by
  simp only [Host.scatterAdd, Ideal.hostScatterAdd_def, Ideal.hostScatterAdd]
  refine congrArg (x (ix2 g f) + ·) ?_
  rw [Finset.sum_filter, sum_idx2]
  refine Finset.sum_congr rfl fun n _ => ?_
  simp only [poolDims_resultIdx_iff]
  by_cases hq : (idx (ix2 n (0 : Fin 1))).toInt = (g.val : Int)
  · simp [hq]
  · simp [hq]

/-! ## The reference's pooling is the specification -/

/-- The scatter-add of the features `h` at the batch vector, into zeros, is the pooled sums of `h` weighted by the
    one-hot matrix of the batch vector. -/
theorem pool_ref (x2 : S100000.Idx → BitVec 32) (h : S100000x64.Idx → EReal) :
    Host.scatterAdd (F := Ideal) (φ := .f32) Cert.ReferenceIdeal.scatter_S64x64_S100000x1_S100000x64_1_0_0_1
        (Cert.ReferenceIdeal.Read.val_main_v112 (F := Ideal)) (Cert.ReferenceIdeal.Read.val_main_v113 (F := Ideal) x2) h
      = poolSum (onehot x2) h := by
  funext i
  obtain ⟨g, f, rfl⟩ : ∃ (g f : Fin 64), i = ix2 g f := ⟨i 0, i 1, eq_ix2 i⟩
  rw [poolSum_apply]
  refine (scatterAdd_pool_apply _ _ h g f).trans ?_
  rw [Cert.ReferenceIdeal.Read.val_main_v112_apply, Cert.ReferenceIdeal.Read.val_main_cst_25_apply]
  show Ideal.ofBits .f32 0x00000000#32 + _ = _
  rw [Ideal.ofBits_zero_f32, zero_add]
  refine Finset.sum_congr rfl fun n _ => ?_
  rw [onehot_apply, Cert.ReferenceIdeal.Read.val_main_v113_apply]
  have hi : Cert.ReferenceIdeal.Read.idx_main_v113 (ix2 n (0 : Fin 1)) = ix1 n := funext fun a => match a with | ⟨0, _⟩ => rfl
  rw [hi]
  by_cases hq : x2 (ix1 n) = BitVec.ofNat 32 g.val
  · rw [if_pos ((toInt_eq_small _ g).mpr hq), if_pos hq, one_mul]
  · rw [if_neg (fun e => hq ((toInt_eq_small _ g).mp e)), if_neg hq, zero_mul]

end Cert.KernelIdeal.Values
-- ==== Proof.Value.Bridge2.lean ====
/-
  The second half of the program against the reference: from the normalised activations to the two results.
  The second linear layer (a launch: the row blocks of a matrix product are the rows of the whole product), the
  second aggregation and the bias (host operations shared with the reference: the first result), the one-hot
  assignment matrix of the batch vector (host operations), the pooled sums (a launch: the transposed one-hot matrix
  times the features, which is the reference's scatter-add of the rows into their graphs' rows), the per-graph counts
  and the division (shared host operations: the second result). A buffer no item writes in between keeps its
  contents: the arguments, the edge lists and coefficients, and the first result through the pooling launch, which
  only reads it.
-/
import proofs.«424110_j77214922048129_1_alg».proof.Proof.KernelIdealFrame.Frame
import proofs.«424110_j77214922048129_1_alg».proof.Proof.Value.Lin
import proofs.«424110_j77214922048129_1_alg».proof.Proof.Value.PoolKernel
import proofs.«424110_j77214922048129_1_alg».proof.Proof.Value.PoolRef
import proofs.«424110_j77214922048129_1_alg».proof.Proof.Value.Host
import proofs.«424110_j77214922048129_1_alg».proof.Proof.ReferenceRead

set_option maxRecDepth 16384

noncomputable section

namespace Cert.KernelIdeal.Values

open Cert.KernelIdeal Cert.KernelIdeal.Gen Cert.KernelIdeal.Frames
open Idealize.ShloMosaic Idealize.ShloMosaic.TcCoe Idealize.SL.Sem

variable (m : (ℓ : Loc nD τ sig) → Buf (Elt Ideal) ℓ) (c : Dev nD)

/-! ## Buffers no item writes keep their contents -/

/-- A buffer that no host operation up to the second launch writes and that is no window's array of the first two
    launches is, at the third launch's entry, as the program was launched. -/
theorem entry2_of_untouched (b : Ref sig .tc) (h0 : b ∉ hostOps0_W) (h1 : b ∉ hostOps0_1_W) (h2 : b ∉ hostOps0_2_W)
    (hL0 : ∀ w, Pipeline.arrRef spec0 w ≠ b) (h5 : b ∉ hostOps1_W) (hL1 : ∀ w, Pipeline.arrRef spec1 w ≠ b) :
    W6 m c (Proc.devRef .tc b) = m ((c : Thread nD τ).loc b) :=
  calc W6 m c (Proc.devRef .tc b)
    _ = W5 m c (Proc.devRef .tc b) := W6_of_ne m c b hL1
    _ = W4 m c (Proc.devRef .tc b) := StableHlo.after_of_writes_sub hostOps1 _ hostOps1_writes h5
    _ = W3 m c (Proc.devRef .tc b) := W4_of_ne m c b hL0
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-- The second weight matrix at the third launch's entry. -/
theorem arg7_entry2 : W6 m c (Proc.devRef .tc main_arg7) = (m ((c : Thread nD τ).loc main_arg7)) :=
  entry2_of_untouched m c main_arg7 (by decide) (by decide) (by decide) (by decide) (by decide) (by decide)

/-- The second bias after the third launch. -/
theorem arg8_after2 : W7 m c (Proc.devRef .tc main_arg8) = (m ((c : Thread nD τ).loc main_arg8)) :=
  (W7_of_ne m c main_arg8 (by decide)).trans
    (entry2_of_untouched m c main_arg8 (by decide) (by decide) (by decide) (by decide) (by decide) (by decide))

/-- The batch vector after the third launch. -/
theorem arg2_after2 : W7 m c (Proc.devRef .tc main_arg2) = (m ((c : Thread nD τ).loc main_arg2)) :=
  (W7_of_ne m c main_arg2 (by decide)).trans
    (entry2_of_untouched m c main_arg2 (by decide) (by decide) (by decide) (by decide) (by decide) (by decide))

/-- The batch vector after the last launch. -/
theorem arg2_after3 : W9 m c (Proc.devRef .tc main_arg2) = (m ((c : Thread nD τ).loc main_arg2)) :=
  (W9_of_ne m c main_arg2 (by decide)).trans
    ((StableHlo.after_of_writes_sub hostOps3 _ hostOps3_writes (by decide)).trans (arg2_after2 m c))

/-! ## Stage by stage -/

/-- After the third launch its result array is the reference's second product. -/
theorem lin2_at (h47 : W6 m c (Proc.devRef .tc main_v47) = Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :
    W7 m c (Proc.devRef .tc main_v48) = Cert.ReferenceIdeal.Read.val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W7_arr m c 2).trans (lin2_value (VE2 m) c)).trans ?_
  rw [show VE2 m c main_v47 = Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) from h47,
    show VE2 m c main_arg7 = (m ((c : Thread nD τ).loc main_arg7)) from arg7_entry2 m c]
  rfl

/-- The second aggregation with the bias added: the first result, before the pooling launch. -/
theorem agg2_at (h47 : W6 m c (Proc.devRef .tc main_v47) = Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
    (h3 : W6 m c (Proc.devRef .tc main_v3) = Cert.ReferenceIdeal.Read.val_main_v3 (F := Ideal) (m ((c : Thread nD τ).loc main_arg1)))
    (h6 : W6 m c (Proc.devRef .tc main_v6) = Cert.ReferenceIdeal.Read.val_main_v6 (F := Ideal) (m ((c : Thread nD τ).loc main_arg1)))
    (h29 : W6 m c (Proc.devRef .tc main_v29) = Cert.ReferenceIdeal.Read.val_main_v30 (F := Ideal) (m ((c : Thread nD τ).loc main_arg1))) :
    W8 m c (Proc.devRef .tc main_v64) = Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  host_agg2 (W7 m c) _ _ _ _ _ _ _ _ (lin2_at m c h47)
    ((W7_of_ne m c main_v3 (by decide)).trans h3) ((W7_of_ne m c main_v6 (by decide)).trans h6)
    ((W7_of_ne m c main_v29 (by decide)).trans h29) (arg8_after2 m c)

/-- The one-hot assignment matrix of the batch vector, before the pooling launch. -/
theorem onehot_at : W8 m c (Proc.devRef .tc main_v71) = onehot (m ((c : Thread nD τ).loc main_arg2)) :=
  host_onehot (W7 m c) _ (arg2_after2 m c)

/-- After the pooling launch its result array is the reference's scatter-add of the first result's rows. -/
theorem pool_at
    (hpool : (dat3 (F := Ideal) (VE3 m) c).arrAt 2 cfg3.N = poolSum (VE3 m c main_v71) (VE3 m c main_v64))
    (h64 : W8 m c (Proc.devRef .tc main_v64) = Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W9 m c (Proc.devRef .tc main_v72) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W9_arr m c 2).trans hpool).trans ?_
  rw [show VE3 m c main_v71 = onehot (m ((c : Thread nD τ).loc main_arg2)) from onehot_at m c,
    show VE3 m c main_v64 = Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) from h64]
  exact (pool_ref (m ((c : Thread nD τ).loc main_arg2)) (Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))).symm

/-- The pooling launch only reads the first result, and the last host operations do not write it. -/
theorem result1_kept : W10 m c (Proc.devRef .tc main_v64) = W8 m c (Proc.devRef .tc main_v64) :=
  (StableHlo.after_of_writes_sub hostOps4 _ hostOps4_writes (by decide)).trans
    ((W9_arr m c 1).trans (((dat3 (VE3 m) c).arrAt_in 1 rfl _).trans (A_eq3 (VE3 m) c 1)))

/-- The second half, given what the pooling launch leaves: both results are the reference's. -/
theorem second_half_of
    (hpool : (dat3 (F := Ideal) (VE3 m) c).arrAt 2 cfg3.N = poolSum (VE3 m c main_v71) (VE3 m c main_v64))
    (h47 : W6 m c (Proc.devRef .tc main_v47) = Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
    (h3 : W6 m c (Proc.devRef .tc main_v3) = Cert.ReferenceIdeal.Read.val_main_v3 (F := Ideal) (m ((c : Thread nD τ).loc main_arg1)))
    (h6 : W6 m c (Proc.devRef .tc main_v6) = Cert.ReferenceIdeal.Read.val_main_v6 (F := Ideal) (m ((c : Thread nD τ).loc main_arg1)))
    (h29 : W6 m c (Proc.devRef .tc main_v29) = Cert.ReferenceIdeal.Read.val_main_v30 (F := Ideal) (m ((c : Thread nD τ).loc main_arg1))) :
    W10 m c (Proc.devRef .tc main_v64) = Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ W10 m c (Proc.devRef .tc main_v81) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ⟨(result1_kept m c).trans (agg2_at m c h47 h3 h6 h29),
    host_mean (W9 m c) _ _ _ _ _ _ _ _ _ (pool_at m c hpool (agg2_at m c h47 h3 h6 h29)) (arg2_after3 m c)⟩

/-- THE SECOND HALF: from the normalised activations, the edge lists and the coefficients at the third launch's
    entry, the program's two result buffers end at the reference's two results. -/
theorem second_half
    (h47 : W6 m c (Proc.devRef .tc main_v47) = Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
    (h3 : W6 m c (Proc.devRef .tc main_v3) = Cert.ReferenceIdeal.Read.val_main_v3 (F := Ideal) (m ((c : Thread nD τ).loc main_arg1)))
    (h6 : W6 m c (Proc.devRef .tc main_v6) = Cert.ReferenceIdeal.Read.val_main_v6 (F := Ideal) (m ((c : Thread nD τ).loc main_arg1)))
    (h29 : W6 m c (Proc.devRef .tc main_v29) = Cert.ReferenceIdeal.Read.val_main_v30 (F := Ideal) (m ((c : Thread nD τ).loc main_arg1))) :
    W10 m c (Proc.devRef .tc main_v64) = Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ W10 m c (Proc.devRef .tc main_v81) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  second_half_of m c (pool_value (VE3 m) c) h47 h3 h6 h29

end Cert.KernelIdeal.Values

end
-- ==== Proof.Value.Algebraic.lean ====
/-
  The algebraic claim: from memories that agree on the arguments, the idealized kernel program and the idealized
  reference both run, and end with equal results. The kernel's run names its results at its last valuation, which
  the stage-by-stage walk identifies with the reference's stage functions of the arguments; the reference's run is
  its own read-back.
-/
import proofs.«424110_j77214922048129_1_alg».proof.Proof.Value.Bridge1
import proofs.«424110_j77214922048129_1_alg».proof.Proof.Value.Bridge2
import proofs.«424110_j77214922048129_1_alg».proof.Defs
import proofs.«424110_j77214922048129_1_alg».proof.Proof.Gen.Pre_finite_inputs

set_option maxRecDepth 16384

noncomputable section

namespace Cert.KernelIdeal.Values

open Cert.KernelIdeal Cert.KernelIdeal.Gen Cert.KernelIdeal.Frames
open Idealize.ShloMosaic Idealize.ShloMosaic.TcCoe Idealize.SL.Sem

/-- Both results of the kernel's run, as the reference's stage functions of the launch arguments. -/
theorem results (m : (ℓ : Loc nD τ sig) → Buf (Elt Ideal) ℓ) (c : Dev nD) :
    W10 m c (Proc.devRef .tc main_v64) = Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ W10 m c (Proc.devRef .tc main_v81) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  second_half m c (relu_at m c) (edges6 m c).1 (edges6 m c).2.1 (edges6 m c).2.2

theorem algebraic : Cert.algebraic_KernelIdeal_ReferenceIdeal := by
  intro m ρ m' ρ' _ hagree
  refine ⟨fun c => Cert.ReferenceIdeal.Value.res_main_v111 m' c, fun c => Cert.ReferenceIdeal.Value.res_main_v123 m' c, ?_,
    Cert.ReferenceIdeal.Value.run (F := Ideal) m' ρ'⟩
  refine (θ_run Cert.KernelIdeal.defs _ _).mono (fun r h c => ⟨(h c).1.trans ?_, (h c).2.1.trans ?_, (h c).2.2⟩)
    (run_results (F := Ideal) m ρ)
  · show _ = Cert.ReferenceIdeal.Value.res_main_v111 m' c
    rw [Cert.ReferenceIdeal.Read.val_main_v111_eq m' c, (hagree c).1, (hagree c).2.1, (hagree c).2.2.2.1, (hagree c).2.2.2.2.1,
      (hagree c).2.2.2.2.2.1, (hagree c).2.2.2.2.2.2.1, (hagree c).2.2.2.2.2.2.2.1, (hagree c).2.2.2.2.2.2.2.2]
    exact (results m c).1
  · show _ = Cert.ReferenceIdeal.Value.res_main_v123 m' c
    rw [Cert.ReferenceIdeal.Read.val_main_v123_eq m' c, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact (results m c).2

end Cert.KernelIdeal.Values

end
-- ==== Proof.lean ====
/-
  The certificate of the two-layer graph convolution network kernel against its jnp reference.
  Frames: the word-level program and its idealization run to the end and leave the arguments as launched (four
  launches between stretches of host operations, each launch's body run once per grid point; the last launch keeps
  a running sum in a scratch buffer between points); the reference's frame is its run read back.
  The idealization rewrote nothing, so `preserves` is trivial.
  Equivalence at the ideal instance: the two linear layers' row blocks are the rows of the reference's matrix
  products, the fused bias + row normalisation + ReLU is the reference's formula row by row, the aggregations and
  the final division are the same host operations on both sides, and the one-hot matrix product accumulated over
  row blocks is the reference's scatter-add (0·x = 0, 1·x = x, + commutative and associative on the extended reals).
-/
import proofs.«424110_j77214922048129_1_alg».proof.Defs
import proofs.«424110_j77214922048129_1_alg».proof.Proof.Gen.Kernel
import proofs.«424110_j77214922048129_1_alg».proof.Proof.Gen.KernelIdeal
import proofs.«424110_j77214922048129_1_alg».proof.Proof.Gen.ReferenceIdeal
import proofs.«424110_j77214922048129_1_alg».proof.Proof.Gen.Pre_finite_inputs
import proofs.«424110_j77214922048129_1_alg».proof.Proof.KernelFrame.Frame
import proofs.«424110_j77214922048129_1_alg».proof.Proof.KernelIdealFrame.Frame
import proofs.«424110_j77214922048129_1_alg».proof.Proof.ReferenceRun
import proofs.«424110_j77214922048129_1_alg».proof.Proof.Value.Algebraic
import Idealize.ShloMosaic.Adequacy
import Idealize.ShloMosaic.Init

noncomputable section

namespace Cert.Proof

open Idealize.ShloMosaic Idealize.SL.Sem

theorem frame_kernel : Cert.frame_Kernel := fun m ρ _ => Cert.Kernel.Frames.frame m ρ
theorem frame_kernel_ideal : Cert.frame_KernelIdeal := fun m ρ _ => Cert.KernelIdeal.Frames.frame m ρ
theorem frame_reference : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.KernelIdeal.Values.algebraic⟩

end Cert.Proof

end
